-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S256x256x3x3 : Shape := ⟨4, ![256, 256, 3, 3]⟩
abbrev S256 : Shape := ⟨1, ![256]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x256x64x64 .f32) (main_arg1 : FVec F S256x256x3x3 .f32) (main_arg2 : FVec F S256 .f32) (main_arg3 : FVec F S256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S256x256x3x3 .f32 := Host.absf main_arg1
  let main_cst_0 : FVec F S_ .f32 := constant S_ .f32 0x7F800000#32
  let main_v5 : FVec F S256x256x3x3 .f32 := broadcastInDim S256x256x3x3 ![] bcast_S_S256x256x3x3 main_cst_0
  let main_v6 : IVec S256x256x3x3 1 := cmpf .olt main_v4 main_v5
  let main_c_1 : IVec S_ 1 := constantI S_ 1 1#1
  let main_v7 : IVec S_ 1 := (fun x v => Host.reduce IntOp.andi x v reducesTo_S256x256x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x256x64x64 : Shape := ⟨4, ![8, 256, 64, 64]⟩
abbrev S256x256x3x3 : Shape := ⟨4, ![256, 256, 3, 3]⟩
abbrev S256 : Shape := ⟨1, ![256]⟩
abbrev S8x64x64x256 : Shape := ⟨4, ![8, 64, 64, 256]⟩
abbrev S_ : Shape := ⟨0, ![]⟩
abbrev S8x68x68x256 : Shape := ⟨4, ![8, 68, 68, 256]⟩
abbrev S3x3x256x256 : Shape := ⟨4, ![3, 3, 256, 256]⟩
abbrev S2304x256 : Shape := ⟨2, ![2304, 256]⟩
abbrev S8x8x2x256 : Shape := ⟨4, ![8, 8, 2, 256]⟩
abbrev S1x68x68x256 : Shape := ⟨4, ![1, 68, 68, 256]⟩
abbrev S1x8x64x256 : Shape := ⟨4, ![1, 8, 64, 256]⟩
abbrev S1x1x2x256 : Shape := ⟨4, ![1, 1, 2, 256]⟩
abbrev S8x64x256 : Shape := ⟨3, ![8, 64, 256]⟩
abbrev S512x256 : Shape := ⟨2, ![512, 256]⟩
abbrev S512x2304 : Shape := ⟨2, ![512, 2304]⟩
abbrev S1x256 : Shape := ⟨2, ![1, 256]⟩
abbrev S2x256 : Shape := ⟨2, ![2, 256]⟩
abbrev S1x1x256 : Shape := ⟨3, ![1, 1, 256]⟩

abbrev nBuf : Space → Nat
  | .hbm => 52
  | .vmem => 13
  | .smem => 0
  | _ => 0

abbrev bufTy : (tb : Table) → Fin (tcTables nBuf tb) → BufTy
  | .hbm, ⟨0, _⟩ => ⟨S8x256x64x64, .f32⟩
  | .hbm, ⟨1, _⟩ => ⟨S256x256x3x3, .f32⟩
  | .hbm, ⟨2, _⟩ => ⟨S256, .f32⟩
  | .hbm, ⟨3, _⟩ => ⟨S256, .f32⟩
  | .hbm, ⟨4, _⟩ => ⟨S8x64x64x256, .f32⟩
  | .hbm, ⟨5, _⟩ => ⟨S_, .i32⟩
  | .hbm, ⟨6, _⟩ => ⟨S_, .f32⟩
  | .hbm, ⟨7, _⟩ => ⟨S8x68x68x256, .f32⟩
  | .hbm, ⟨8, _⟩ => ⟨S8x68x68x256, .bf16⟩
  | .hbm, ⟨9, _⟩ => ⟨S3x3x256x256, .f32⟩
  | .hbm, ⟨10, _⟩ => ⟨S_, .i32⟩
  | .hbm, ⟨11, _⟩ => ⟨S_, .f32⟩
  | .hbm, ⟨12, _⟩ => ⟨S3x3x256x256, .f32⟩
  | .hbm, ⟨13, _⟩ => ⟨S2304x256, .f32⟩
  | .hbm, ⟨14, _⟩ => ⟨S2304x256, .bf16⟩
  | .hbm, ⟨15, _⟩ => ⟨S8x64x64x256, .bf16⟩
  | .hbm, ⟨16, _⟩ => ⟨S8x8x2x256, .f32⟩
  | .hbm, ⟨17, _⟩ => ⟨S_, .f32⟩
  | .hbm, ⟨18, _⟩ => ⟨S2x256, .f32⟩
  | .hbm, ⟨19, _⟩ => ⟨S1x256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .i32⟩
  | .hbm, ⟨39, _⟩ => ⟨S_, .f32⟩
  | .hbm, ⟨40, _⟩ => ⟨S256, .f32⟩
  | .hbm, ⟨41, _⟩ => ⟨S_, .i32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S8x64x64x256, .f32⟩
  | .hbm, ⟨51, _⟩ => ⟨S8x256x64x64, .f32⟩
  | .local _ .vmem, ⟨0, _⟩ => ⟨S1x68x68x256, .bf16⟩
  | .local _ .vmem, ⟨1, _⟩ => ⟨S1x68x68x256, .bf16⟩
  | .local _ .vmem, ⟨2, _⟩ => ⟨S2304x256, .bf16⟩
  | .local _ .vmem, ⟨3, _⟩ => ⟨S1x8x64x256, .bf16⟩
  | .local _ .vmem, ⟨4, _⟩ => ⟨S1x8x64x256, .bf16⟩
  | .local _ .vmem, ⟨5, _⟩ => ⟨S1x1x2x256, .f32⟩
  | .local _ .vmem, ⟨6, _⟩ => ⟨S1x1x2x256, .f32⟩
  | .local _ .vmem, ⟨7, _⟩ => ⟨S1x8x64x256, .bf16⟩
  | .local _ .vmem, ⟨8, _⟩ => ⟨S1x8x64x256, .bf16⟩
  | .local _ .vmem, ⟨9, _⟩ => ⟨S1x256, .f32⟩
  | .local _ .vmem, ⟨10, _⟩ => ⟨S1x256, .f32⟩
  | .local _ .vmem, ⟨11, _⟩ => ⟨S1x8x64x256, .f32⟩
  | .local _ .vmem, ⟨12, _⟩ => ⟨S1x8x64x256, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_call2_v0 : Ref sig .tc := ⟨.hbm, 39, rfl⟩
abbrev main_v24 : Ref sig .tc := ⟨.hbm, 40, rfl⟩
abbrev main_c_6 : Ref sig .tc := ⟨.hbm, 41, rfl⟩
abbrev main_call3_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) (c0_i32 : BitVec 32) : Fin 4 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v3 : Index := Scalar.indexCast v2
  let c0_0 : Index := 0#32
  let c0_1 : Index := 0#32
  ![0, v3.toNat, 0, 0]
def k0_off2 (i : grid0.Coords) (c0_i32 : BitVec 32) : Fin 4 → Nat :=
  let c0_2 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v7 : Index := Scalar.indexCast v2
  let c2 : Index := 2#32
  let c0_3 : Index := 0#32
  ![0, v7.toNat, 2, 0]
def k0_off3 (i : grid0.Coords) (c0_i32 : BitVec 32) : Fin 4 → Nat :=
  let c0_4 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v11 : Index := Scalar.indexCast v2
  let c4 : Index := 4#32
  let c0_5 : Index := 0#32
  ![0, v11.toNat, 4, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x68x68x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x64x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S8x256x64x64_S8x64x64x256_0_2_3_1 : S8x256x64x64.Transposes [0, 2, 3, 1] S8x64x64x256
  pads_S8x64x64x256_S8x68x68x256_000_220_220_000 : S8x64x64x256.Pads (![0, 2, 2, 0] : Fin 4 → Nat) ![0, 2, 2, 0] ![0, 0, 0, 0] S8x68x68x256
  h_S_ : 0 < S_.numel
  bitsLt_bf16_f32 : FTy.bits .bf16 < FTy.bits .f32
  transposes_S256x256x3x3_S3x3x256x256_2_3_1_0 : S256x256x3x3.Transposes [2, 3, 1, 0] S3x3x256x256
  pads_S3x3x256x256_S3x3x256x256_000_000_000_000 : S3x3x256x256.Pads (![0, 0, 0, 0] : Fin 4 → Nat) ![0, 0, 0, 0] ![0, 0, 0, 0] S3x3x256x256
  shapeCasts_S3x3x256x256_S2304x256 : S3x3x256x256.ShapeCasts S2304x256
  h_S1x8x64x256 : 0 < S1x8x64x256.numel
  shapeCasts_S1x8x64x256_S8x64x256 : S1x8x64x256.ShapeCasts S8x64x256
  shapeCasts_S8x64x256_S512x256 : S8x64x256.ShapeCasts S512x256
  concatenates_S512x256_S512x256_S512x256_S512x256_S512x256_S512x256_S512x256_S512x256_S512x256_S512x2304_d1 : Shape.Concatenates [S512x256, S512x256, S512x256, S512x256, S512x256, S512x256, S512x256, S512x256, S512x256] S512x2304 1
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  shapeCasts_S512x256_S8x64x256 : S512x256.ShapeCasts S8x64x256
  inb_S1x8x64x256_S1x8x64x256_0_0_0_0 : ∀ a, (![0, 0, 0, 0] : Fin 4 → Nat) a + S1x8x64x256.size a ≤ S1x8x64x256.size a
  shapeCasts_S8x64x256_S1x8x64x256 : S8x64x256.ShapeCasts S1x8x64x256
  packedbf16_S1x8x64x256_S1x8x64x256_0_0_0_0 : (Rect.unit (s := S1x8x64x256) ![0, 0, 0, 0] S1x8x64x256.size inb_S1x8x64x256_S1x8x64x256_0_0_0_0).PackedRows (EltTy.packing .bf16)
  reduces_S512x256_S256 : S512x256.Reduces [0] S256
  shapeCasts_S256_S1x256 : S256.ShapeCasts S1x256
  concatenates_S1x256_S1x256_S2x256_d0 : Shape.Concatenates [S1x256, S1x256] S2x256 0
  inb_S1x1x2x256_S1x1x2x256_0_0_0_0 : ∀ a, (![0, 0, 0, 0] : Fin 4 → Nat) a + S1x1x2x256.size a ≤ S1x1x2x256.size a
  h_S1x1x2x256 : 0 < S1x1x2x256.numel
  shapeCasts_S1x1x2x256_S2x256 : S1x1x2x256.ShapeCasts S2x256
  shapeCasts_S2x256_S1x1x2x256 : S2x256.ShapeCasts S1x1x2x256
  reducesTo_S8x8x2x256_S2x256_d0_1 : S8x8x2x256.ReducesTo [0, 1] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  pads_S256_S256_000 : S256.Pads (![0] : Fin 1 → Nat) ![0] ![0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S8x64x256 : S1x1x256.Broadcasts S8x64x256
  transposes_S8x64x64x256_S8x256x64x64_0_3_1_2 : S8x64x64x256.Transposes [0, 3, 1, 2] S8x256x64x64
  dot_S512x2304_S2304x256_S512x256_1_0_0_1_n_n_wf : DotDims.WF S512x2304 S2304x256 S512x256 [1] [0] [0] [1] [] []
  hrank0 : 0 < grid0.rank
  k0_mult1_dvd : ∀ i : grid0.Coords, 8 ∣ (k0_mult1 i).toNat
  k0_off1_inb : ∀ i : grid0.Coords, ∀ (r : Fin 3), ∀ a, (k0_off1 i (BitVec.ofNat 32 (2 * r.val))) a + S1x8x64x256.size a ≤ S1x68x68x256.size a
  k0_off2_inb : ∀ i : grid0.Coords, ∀ (r : Fin 3), ∀ a, (k0_off2 i (BitVec.ofNat 32 (2 * r.val))) a + S1x8x64x256.size a ≤ S1x68x68x256.size a
  k0_off3_inb : ∀ i : grid0.Coords, ∀ (r : Fin 3), ∀ a, (k0_off3 i (BitVec.ofNat 32 (2 * r.val))) a + S1x8x64x256.size a ≤ S1x68x68x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x256.size a ≤ S8x68x68x256.size a
  hwx0_0 : ∀ i : grid0.Coords, EltTy.bits .bf16 = 32 ∨ (Rect.block (s := S8x68x68x256) S1x68x68x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x256.size a ≤ S2304x256.size a
  hwx0_1 : ∀ i : grid0.Coords, EltTy.bits .bf16 = 32 ∨ (Rect.block (s := S2304x256) S2304x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x256.size a ≤ S8x64x64x256.size a
  hwx0_2 : ∀ i : grid0.Coords, EltTy.bits .bf16 = 32 ∨ (Rect.block (s := S8x64x64x256) S1x8x64x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2x256.size a ≤ S8x8x2x256.size a
  hwx0_3 : ∀ i : grid0.Coords, EltTy.bits .f32 = 32 ∨ (Rect.block (s := S8x8x2x256) S1x1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x64x256.size a ≤ S8x64x64x256.size a
  hwx1_0 : ∀ i : grid1.Coords, EltTy.bits .bf16 = 32 ∨ (Rect.block (s := S8x64x64x256) S1x8x64x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x64x256.size a ≤ S8x64x64x256.size a
  hwx1_3 : ∀ i : grid1.Coords, EltTy.bits .f32 = 32 ∨ (Rect.block (s := S8x64x64x256) S1x8x64x256.size (cc1_transform_3 i) (hinb1_3 i)).WholeWords (EltTy.packing .f32)

variable [Facts₀]

def dot_S512x2304_S2304x256_S512x256_1_0_0_1_n_n : DotDims S512x2304 S2304x256 S512x256 where
  lhsContracting := [1]
  rhsContracting := [0]
  lhsNonContracting := [0]
  rhsNonContracting := [1]
  lhsBatch := []
  rhsBatch := []
  wf := dot_S512x2304_S2304x256_S512x256_1_0_0_1_n_n_wf

abbrev win0_0 : Pipeline.Window sig grid0 :=
  Pipeline.Window.ofSpec (Memref.whole main_v2) S1x68x68x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2304x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x8x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7_0) S1x8x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x8x64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x64x64 : Shape := ⟨4, ![8, 256, 64, 64]⟩
abbrev S256x256x3x3 : Shape := ⟨4, ![256, 256, 3, 3]⟩
abbrev S256 : Shape := ⟨1, ![256]⟩
abbrev S8x64x64x256 : Shape := ⟨4, ![8, 64, 64, 256]⟩
abbrev S_ : Shape := ⟨0, ![]⟩
abbrev S8x68x68x256 : Shape := ⟨4, ![8, 68, 68, 256]⟩
abbrev S3x3x256x256 : Shape := ⟨4, ![3, 3, 256, 256]⟩
abbrev S2304x256 : Shape := ⟨2, ![2304, 256]⟩
abbrev S8x8x2x256 : Shape := ⟨4, ![8, 8, 2, 256]⟩
abbrev S1x68x68x256 : Shape := ⟨4, ![1, 68, 68, 256]⟩
abbrev S1x8x64x256 : Shape := ⟨4, ![1, 8, 64, 256]⟩
abbrev S1x1x2x256 : Shape := ⟨4, ![1, 1, 2, 256]⟩
abbrev S8x64x256 : Shape := ⟨3, ![8, 64, 256]⟩
abbrev S512x256 : Shape := ⟨2, ![512, 256]⟩
abbrev S512x2304 : Shape := ⟨2, ![512, 2304]⟩
abbrev S1x256 : Shape := ⟨2, ![1, 256]⟩
abbrev S2x256 : Shape := ⟨2, ![2, 256]⟩
abbrev S1x1x256 : Shape := ⟨3, ![1, 1, 256]⟩

abbrev nBuf : Space → Nat
  | .hbm => 50
  | .vmem => 13
  | .smem => 0
  | _ => 0

abbrev bufTy : (tb : Table) → Fin (tcTables nBuf tb) → BufTy
  | .hbm, ⟨0, _⟩ => ⟨S8x256x64x64, .f32⟩
  | .hbm, ⟨1, _⟩ => ⟨S256x256x3x3, .f32⟩
  | .hbm, ⟨2, _⟩ => ⟨S256, .f32⟩
  | .hbm, ⟨3, _⟩ => ⟨S256, .f32⟩
  | .hbm, ⟨4, _⟩ => ⟨S8x64x64x256, .f32⟩
  | .hbm, ⟨5, _⟩ => ⟨S_, .i32⟩
  | .hbm, ⟨6, _⟩ => ⟨S_, .f32⟩
  | .hbm, ⟨7, _⟩ => ⟨S8x68x68x256, .f32⟩
  | .hbm, ⟨8, _⟩ => ⟨S3x3x256x256, .f32⟩
  | .hbm, ⟨9, _⟩ => ⟨S_, .i32⟩
  | .hbm, ⟨10, _⟩ => ⟨S_, .f32⟩
  | .hbm, ⟨11, _⟩ => ⟨S3x3x256x256, .f32⟩
  | .hbm, ⟨12, _⟩ => ⟨S2304x256, .f32⟩
  | .hbm, ⟨13, _⟩ => ⟨S8x64x64x256, .f32⟩
  | .hbm, ⟨14, _⟩ => ⟨S8x8x2x256, .f32⟩
  | .hbm, ⟨15, _⟩ => ⟨S_, .f32⟩
  | .hbm, ⟨16, _⟩ => ⟨S2x256, .f32⟩
  | .hbm, ⟨17, _⟩ => ⟨S1x256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .i32⟩
  | .hbm, ⟨37, _⟩ => ⟨S_, .f32⟩
  | .hbm, ⟨38, _⟩ => ⟨S256, .f32⟩
  | .hbm, ⟨39, _⟩ => ⟨S_, .i32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S8x64x64x256, .f32⟩
  | .hbm, ⟨49, _⟩ => ⟨S8x256x64x64, .f32⟩
  | .local _ .vmem, ⟨0, _⟩ => ⟨S1x68x68x256, .f32⟩
  | .local _ .vmem, ⟨1, _⟩ => ⟨S1x68x68x256, .f32⟩
  | .local _ .vmem, ⟨2, _⟩ => ⟨S2304x256, .f32⟩
  | .local _ .vmem, ⟨3, _⟩ => ⟨S1x8x64x256, .f32⟩
  | .local _ .vmem, ⟨4, _⟩ => ⟨S1x8x64x256, .f32⟩
  | .local _ .vmem, ⟨5, _⟩ => ⟨S1x1x2x256, .f32⟩
  | .local _ .vmem, ⟨6, _⟩ => ⟨S1x1x2x256, .f32⟩
  | .local _ .vmem, ⟨7, _⟩ => ⟨S1x8x64x256, .f32⟩
  | .local _ .vmem, ⟨8, _⟩ => ⟨S1x8x64x256, .f32⟩
  | .local _ .vmem, ⟨9, _⟩ => ⟨S1x256, .f32⟩
  | .local _ .vmem, ⟨10, _⟩ => ⟨S1x256, .f32⟩
  | .local _ .vmem, ⟨11, _⟩ => ⟨S1x8x64x256, .f32⟩
  | .local _ .vmem, ⟨12, _⟩ => ⟨S1x8x64x256, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call2_v0 : Ref sig .tc := ⟨.hbm, 37, rfl⟩
abbrev main_v22 : Ref sig .tc := ⟨.hbm, 38, rfl⟩
abbrev main_c_6 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) (c0_i32 : BitVec 32) : Fin 4 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v3 : Index := Scalar.indexCast v2
  let c0_0 : Index := 0#32
  let c0_1 : Index := 0#32
  ![0, v3.toNat, 0, 0]
def k0_off2 (i : grid0.Coords) (c0_i32 : BitVec 32) : Fin 4 → Nat :=
  let c0_2 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v7 : Index := Scalar.indexCast v2
  let c2 : Index := 2#32
  let c0_3 : Index := 0#32
  ![0, v7.toNat, 2, 0]
def k0_off3 (i : grid0.Coords) (c0_i32 : BitVec 32) : Fin 4 → Nat :=
  let c0_4 : Index := 0#32
  let arg1 : BitVec 32 := BitVec.ofNat 32 (i 1).val
  let c8_i32 : BitVec 32 := 8#32
  let v0 : BitVec 32 := Scalar.muli arg1 c8_i32
  let v1 : BitVec 32 := v0
  let v2 : BitVec 32 := Scalar.addi v1 c0_i32
  let v11 : Index := Scalar.indexCast v2
  let c4 : Index := 4#32
  let c0_5 : Index := 0#32
  ![0, v11.toNat, 4, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x68x68x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S8x256x64x64_S8x64x64x256_0_2_3_1 : S8x256x64x64.Transposes [0, 2, 3, 1] S8x64x64x256
  pads_S8x64x64x256_S8x68x68x256_000_220_220_000 : S8x64x64x256.Pads (![0, 2, 2, 0] : Fin 4 → Nat) ![0, 2, 2, 0] ![0, 0, 0, 0] S8x68x68x256
  h_S_ : 0 < S_.numel
  transposes_S256x256x3x3_S3x3x256x256_2_3_1_0 : S256x256x3x3.Transposes [2, 3, 1, 0] S3x3x256x256
  pads_S3x3x256x256_S3x3x256x256_000_000_000_000 : S3x3x256x256.Pads (![0, 0, 0, 0] : Fin 4 → Nat) ![0, 0, 0, 0] ![0, 0, 0, 0] S3x3x256x256
  shapeCasts_S3x3x256x256_S2304x256 : S3x3x256x256.ShapeCasts S2304x256
  h_S1x8x64x256 : 0 < S1x8x64x256.numel
  shapeCasts_S1x8x64x256_S8x64x256 : S1x8x64x256.ShapeCasts S8x64x256
  shapeCasts_S8x64x256_S512x256 : S8x64x256.ShapeCasts S512x256
  concatenates_S512x256_S512x256_S512x256_S512x256_S512x256_S512x256_S512x256_S512x256_S512x256_S512x2304_d1 : Shape.Concatenates [S512x256, S512x256, S512x256, S512x256, S512x256, S512x256, S512x256, S512x256, S512x256] S512x2304 1
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  shapeCasts_S512x256_S8x64x256 : S512x256.ShapeCasts S8x64x256
  inb_S1x8x64x256_S1x8x64x256_0_0_0_0 : ∀ a, (![0, 0, 0, 0] : Fin 4 → Nat) a + S1x8x64x256.size a ≤ S1x8x64x256.size a
  shapeCasts_S8x64x256_S1x8x64x256 : S8x64x256.ShapeCasts S1x8x64x256
  reduces_S512x256_S256 : S512x256.Reduces [0] S256
  shapeCasts_S256_S1x256 : S256.ShapeCasts S1x256
  concatenates_S1x256_S1x256_S2x256_d0 : Shape.Concatenates [S1x256, S1x256] S2x256 0
  inb_S1x1x2x256_S1x1x2x256_0_0_0_0 : ∀ a, (![0, 0, 0, 0] : Fin 4 → Nat) a + S1x1x2x256.size a ≤ S1x1x2x256.size a
  h_S1x1x2x256 : 0 < S1x1x2x256.numel
  shapeCasts_S1x1x2x256_S2x256 : S1x1x2x256.ShapeCasts S2x256
  shapeCasts_S2x256_S1x1x2x256 : S2x256.ShapeCasts S1x1x2x256
  reducesTo_S8x8x2x256_S2x256_d0_1 : S8x8x2x256.ReducesTo [0, 1] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  pads_S256_S256_000 : S256.Pads (![0] : Fin 1 → Nat) ![0] ![0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S8x64x256 : S1x1x256.Broadcasts S8x64x256
  transposes_S8x64x64x256_S8x256x64x64_0_3_1_2 : S8x64x64x256.Transposes [0, 3, 1, 2] S8x256x64x64
  dot_S512x2304_S2304x256_S512x256_1_0_0_1_n_n_wf : DotDims.WF S512x2304 S2304x256 S512x256 [1] [0] [0] [1] [] []
  hrank0 : 0 < grid0.rank
  k0_mult1_dvd : ∀ i : grid0.Coords, 8 ∣ (k0_mult1 i).toNat
  k0_off1_inb : ∀ i : grid0.Coords, ∀ (r : Fin 3), ∀ a, (k0_off1 i (BitVec.ofNat 32 (2 * r.val))) a + S1x8x64x256.size a ≤ S1x68x68x256.size a
  k0_off2_inb : ∀ i : grid0.Coords, ∀ (r : Fin 3), ∀ a, (k0_off2 i (BitVec.ofNat 32 (2 * r.val))) a + S1x8x64x256.size a ≤ S1x68x68x256.size a
  k0_off3_inb : ∀ i : grid0.Coords, ∀ (r : Fin 3), ∀ a, (k0_off3 i (BitVec.ofNat 32 (2 * r.val))) a + S1x8x64x256.size a ≤ S1x68x68x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x256.size a ≤ S8x68x68x256.size a
  hwx0_0 : ∀ i : grid0.Coords, EltTy.bits .f32 = 32 ∨ (Rect.block (s := S8x68x68x256) S1x68x68x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x256.size a ≤ S2304x256.size a
  hwx0_1 : ∀ i : grid0.Coords, EltTy.bits .f32 = 32 ∨ (Rect.block (s := S2304x256) S2304x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x256.size a ≤ S8x64x64x256.size a
  hwx0_2 : ∀ i : grid0.Coords, EltTy.bits .f32 = 32 ∨ (Rect.block (s := S8x64x64x256) S1x8x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2x256.size a ≤ S8x8x2x256.size a
  hwx0_3 : ∀ i : grid0.Coords, EltTy.bits .f32 = 32 ∨ (Rect.block (s := S8x8x2x256) S1x1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x64x256.size a ≤ S8x64x64x256.size a
  hwx1_0 : ∀ i : grid1.Coords, EltTy.bits .f32 = 32 ∨ (Rect.block (s := S8x64x64x256) S1x8x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x64x256.size a ≤ S8x64x64x256.size a
  hwx1_3 : ∀ i : grid1.Coords, EltTy.bits .f32 = 32 ∨ (Rect.block (s := S8x64x64x256) S1x8x64x256.size (cc1_transform_3 i) (hinb1_3 i)).WholeWords (EltTy.packing .f32)

variable [Facts₀]

def dot_S512x2304_S2304x256_S512x256_1_0_0_1_n_n : DotDims S512x2304 S2304x256 S512x256 where
  lhsContracting := [1]
  rhsContracting := [0]
  lhsNonContracting := [0]
  rhsNonContracting := [1]
  lhsBatch := []
  rhsBatch := []
  wf := dot_S512x2304_S2304x256_S512x256_1_0_0_1_n_n_wf

abbrev win0_0 : Pipeline.Window sig grid0 :=
  Pipeline.Window.ofSpec (Memref.whole main_v1) S1x68x68x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2304x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x8x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5_0) S1x8x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x8x64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KReg0.lean ====
import proofs.«155494_g2000402634760427_pallasbulk_1319_1_alg».proof.Proof.Gen.KernelIdeal.Frame
import Idealize.ShloMosaic.Lib.Pipeline.Value
import Idealize.ShloMosaic.Lib.ValueIdx

/-!
# The first region: a dilated 3×3 convolution with per-block channel statistics, as functions of its inputs

The region runs over an 8 × 8 grid: point `(n, h)` takes the whole padded image `n` (68 × 68 × 256) and the whole
weight matrix (2304 × 256), and produces rows `8h … 8h + 7` of image `n` of the convolution (an 8 × 64 × 256 block)
together with one 2 × 256 block of statistics: per channel the sum and the sum of squares of that block's 512 values.
The nine taps of the stencil are nine 8 × 64 × 256 slabs of the padded image, at row offsets `8h + {0, 2, 4}` and
column offsets `{0, 2, 4}`; each is flattened to 512 × 256, the nine are laid side by side (512 × 2304) and multiplied
by the weight matrix.

Here: the two blocks of a point as functions of the point's padded image and the weight (`Reg0.convBlk`,
`Reg0.statBlk`), the two result arrays `GC` and `GS` as functions of all eight padded images and the weight — entry
`(n, r, ·, ·)` of the convolution lies in the block of point `(n, r / 8)` at row `r % 8`; entry `(n, h, ·, ·)` of the
statistics lies in the block of point `(n, h)` —, and the proof that these are what the region leaves in its two
result arrays: every point writes back its block of `GC` (of `GS`), and the 64 blocks tile each array.
-/

set_option maxRecDepth 16384

noncomputable section

namespace Cert.KernelIdeal.Val

open Idealize.ShloMosaic Idealize.ShloMosaic.TcCoe Idealize.ShloMosaic.Tactic Idealize.SL.Sem
open Idealize.ShloMosaic.Pipeline (Dat Cfg Window)
open Cert.KernelIdeal Cert.KernelIdeal.Gen

variable {F : FTy → Type} [FloatOps F]

namespace Reg0

/-! ## The two blocks of one grid point -/

/-- Eight rows by sixty-four columns of one padded image, all channels, with its corner at `off`. -/
abbrev slab (x0 : Vec F S1x68x68x256 .bf16) (off : Fin 4 → Nat)
    (inb : ∀ a, off a + S1x8x64x256.size a ≤ S1x68x68x256.size a) : Vec F S1x8x64x256 .bf16 :=
  View.ld x0 (Rect.unit (s := S1x68x68x256) off S1x8x64x256.size inb)

/-- The convolution block of grid point `i = (n, h)`: output rows `8h … 8h + 7` of image `n`. The nine taps of the
    dilated 3×3 stencil are the slabs of the padded image `x0` at row offsets `8h + {0, 2, 4}` and column offsets
    `{0, 2, 4}`; flattened and laid side by side they form a 512 × 2304 matrix, which is multiplied by the weight
    matrix `x1`. -/
def convBlk (i : grid0.Coords) (x0 : Vec F S1x68x68x256 .bf16) (x1 : Vec F S2304x256 .bf16) : Vec F S1x8x64x256 .bf16 :=
  k0_pay2
    (k0_pay4 (slab x0 (k0_off1 i 0#32) (k0_off1_inb i 0)))
    (k0_pay5 (slab x0 (k0_off2 i 0#32) (k0_off2_inb i 0)))
    (k0_pay6 (slab x0 (k0_off3 i 0#32) (k0_off3_inb i 0)))
    (k0_pay7 (slab x0 (k0_off1 i 2#32) (k0_off1_inb i 1)))
    (k0_pay8 (slab x0 (k0_off2 i 2#32) (k0_off2_inb i 1)))
    (k0_pay9 (slab x0 (k0_off3 i 2#32) (k0_off3_inb i 1)))
    (k0_pay10 (slab x0 (k0_off1 i 4#32) (k0_off1_inb i 2)))
    (slab x0 (k0_off2 i 4#32) (k0_off2_inb i 2))
    (slab x0 (k0_off3 i 4#32) (k0_off3_inb i 2))
    x1

/-- The statistics block of grid point `i`: per channel, the sum (row 0) and the sum of squares (row 1) of the
    512 × 256 product the convolution block is cast from. -/
def statBlk (i : grid0.Coords) (x0 : Vec F S1x68x68x256 .bf16) (x1 : Vec F S2304x256 .bf16) : Vec F S1x1x2x256 .f32 :=
  k0_pay3
    (k0_pay4 (slab x0 (k0_off1 i 0#32) (k0_off1_inb i 0)))
    (k0_pay5 (slab x0 (k0_off2 i 0#32) (k0_off2_inb i 0)))
    (k0_pay6 (slab x0 (k0_off3 i 0#32) (k0_off3_inb i 0)))
    (k0_pay7 (slab x0 (k0_off1 i 2#32) (k0_off1_inb i 1)))
    (k0_pay8 (slab x0 (k0_off2 i 2#32) (k0_off2_inb i 1)))
    (k0_pay9 (slab x0 (k0_off3 i 2#32) (k0_off3_inb i 1)))
    (k0_pay10 (slab x0 (k0_off1 i 4#32) (k0_off1_inb i 2)))
    (slab x0 (k0_off2 i 4#32) (k0_off2_inb i 2))
    (slab x0 (k0_off3 i 4#32) (k0_off3_inb i 2))
    x1

theorem zero4 : (![0, 0, 0, 0] : Fin 4 → Nat) = fun _ => 0 := funext fun a => by fin_cases a <;> rfl
theorem zero2 : (![0, 0] : Fin 2 → Nat) = fun _ => 0 := funext fun a => by fin_cases a <;> rfl

/-- What the body leaves in the convolution window's staging buffer is the convolution block of its two input blocks:
    its one store covers the buffer, and the stored value is the product of the nine loaded slabs and the loaded weight. -/
theorem out_conv (c : Dev nD) (i : grid0.Coords) (arg2 : Memref sig .tc .vmem S1x68x68x256 .bf16) (harg2 : arg2.IsWhole) (arg3 : Memref sig .tc .vmem S2304x256 .bf16) (harg3 : arg3.IsWhole) (arg4 : Memref sig .tc .vmem S1x8x64x256 .bf16) (harg4 : arg4.IsWhole) (arg5 : Memref sig .tc .vmem S1x1x2x256 .f32) (harg5 : arg5.IsWhole)
    (x0 : Vec F S1x68x68x256 .bf16) (x1 : Vec F S2304x256 .bf16) :
    out0_A_2 (F := F) c i arg2 harg2 arg3 harg3 arg4 harg4 arg5 harg5 x0 x1 = convBlk i x0 x1 := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero zero4]
  simp only [View.readAt_eq_ld, harg2.read_unread, harg3.read_unread, View.ld_unit_zero (S := S2304x256) zero2]
  rfl

/-- What the body leaves in the statistics window's staging buffer is the statistics block of its two input blocks. -/
theorem out_stat (c : Dev nD) (i : grid0.Coords) (arg2 : Memref sig .tc .vmem S1x68x68x256 .bf16) (harg2 : arg2.IsWhole) (arg3 : Memref sig .tc .vmem S2304x256 .bf16) (harg3 : arg3.IsWhole) (arg4 : Memref sig .tc .vmem S1x8x64x256 .bf16) (harg4 : arg4.IsWhole) (arg5 : Memref sig .tc .vmem S1x1x2x256 .f32) (harg5 : arg5.IsWhole)
    (x0 : Vec F S1x68x68x256 .bf16) (x1 : Vec F S2304x256 .bf16) :
    out0_A_3 (F := F) c i arg2 harg2 arg3 harg3 arg4 harg4 arg5 harg5 x0 x1 = statBlk i x0 x1 := by
  unfold out0_A_3
  rw [View.read_writes_eq_canon _ _ _ (cover0_A_3 c i arg2 harg2 arg3 harg3 arg4 harg4 arg5 harg5 x0 x1)]
  unfold kernelRun0_A
  dsimp only
  sl_unfold_words
  rw [View.canon_unit_zero zero4]
  simp only [View.readAt_eq_ld, harg2.read_unread, harg3.read_unread, View.ld_unit_zero (S := S2304x256) zero2]
  rfl

/-! ## Where the grid points sit -/

/-- Point `t` of the 8 × 8 grid is `(t / 8, t % 8)` = (image, row block); the padded-image window's block index is
    `(t / 8, 0, 0, 0)`, the weight's `(0, 0)`, both outputs' `(t / 8, t % 8, 0, 0)`. -/
theorem point_facts : ∀ t : Fin cfg0.N,
    (grid0.coords t (0 : Fin 2)).val = t.val / 8 ∧ (grid0.coords t (1 : Fin 2)).val = t.val % 8
    ∧ win0_0.index t (0 : Fin 4) = t.val / 8 ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 8 ∧ win0_2.index t (1 : Fin 4) = t.val % 8
    ∧ win0_2.index t (2 : Fin 4) = 0 ∧ win0_2.index t (3 : Fin 4) = 0
    ∧ win0_3.index t (0 : Fin 4) = t.val / 8 ∧ win0_3.index t (1 : Fin 4) = t.val % 8
    ∧ win0_3.index t (2 : Fin 4) = 0 ∧ win0_3.index t (3 : Fin 4) = 0 :=
  (by decide +kernel : ∀ t : Fin grid0.N, _)

/-! ## From an array index to its grid point and its place in the block -/

/-- The grid point with coordinates `(n, h)`. -/
def gridPt (n h : Fin 8) : grid0.Coords := fun a => match a with | ⟨0, _⟩ => n | ⟨1, _⟩ => h

/-- Index `z` of padded image `n`, as an index of the array of all eight. -/
def inImage (n : Fin 8) (z : S1x68x68x256.Idx) : S8x68x68x256.Idx :=
  fun a => match a with | ⟨0, _⟩ => n | ⟨1, _⟩ => z 1 | ⟨2, _⟩ => z 2 | ⟨3, _⟩ => z 3

/-- Padded image `n` of the array of all eight. -/
def image (X : Vec F S8x68x68x256 .bf16) (n : Fin 8) : Vec F S1x68x68x256 .bf16 := fun z => X (inImage n z)

/-- Where index `j` of the convolution array sits inside its block of eight rows: row `j 1 % 8`. -/
def inRows (j : S8x64x64x256.Idx) : S1x8x64x256.Idx :=
  fun a => match a with
    | ⟨0, _⟩ => ⟨0, Nat.one_pos⟩
    | ⟨1, _⟩ => ⟨(j 1).val % 8, Nat.mod_lt _ (by decide)⟩
    | ⟨2, _⟩ => j 2
    | ⟨3, _⟩ => j 3

/-- Where index `j` of the statistics array sits inside its block: the kind (sum or sum of squares) and the channel. -/
def inStat (j : S8x8x2x256.Idx) : S1x1x2x256.Idx :=
  fun a => match a with
    | ⟨0, _⟩ => ⟨0, Nat.one_pos⟩
    | ⟨1, _⟩ => ⟨0, Nat.one_pos⟩
    | ⟨2, _⟩ => j 2
    | ⟨3, _⟩ => j 3

/-- Row `r < 64` lies in row block `r / 8 < 8`. -/
theorem rowBlock_lt (j : S8x64x64x256.Idx) : (j 1).val / 8 < 8 := by
  have h : (j 1).val < 64 := (j 1).isLt
  omega

end Reg0

open Reg0

/-! ## The two result arrays as functions of the padded images and the weight -/

/-- THE CONVOLUTION ARRAY: entry `(n, r, w, k)` is entry `(r % 8, w, k)` of the convolution block of the grid point
    `(n, r / 8)`, computed from padded image `n` and the weight. -/
def GC (X : Vec F S8x68x68x256 .bf16) (Wt : Vec F S2304x256 .bf16) : Vec F S8x64x64x256 .bf16 :=
  fun j => convBlk (gridPt (j 0) ⟨(j 1).val / 8, rowBlock_lt j⟩) (image X (j 0)) Wt (inRows j)

/-- THE STATISTICS ARRAY: entry `(n, h, s, k)` is entry `(s, k)` of the statistics block of the grid point `(n, h)`,
    computed from padded image `n` and the weight. -/
def GS (X : Vec F S8x68x68x256 .bf16) (Wt : Vec F S2304x256 .bf16) : Vec F S8x8x2x256 .f32 :=
  fun j => statBlk (gridPt (j 0) (j 1)) (image X (j 0)) Wt (inStat j)

namespace Reg0

section Point

variable (V : (c : Dev nD) → (b : Ref sig .tc) → Buf (Elt F) ((c : Thread nD τ).loc b))

/-! ## One grid point: its input blocks, and what it writes back -/

/-- The padded-image window's block at point `t` is padded image `t / 8`. -/
theorem image_block (c : Dev nD) (t : Fin cfg0.N) (n : Fin 8) (hn : n.val = t.val / 8) :
    (iblk0 V c 0 t : Vec F S1x68x68x256 .bf16) = image (V c main_v2) n := by
  obtain ⟨-, -, e0, e1, e2, e3, -⟩ := point_facts t
  funext z
  show V c main_v2 (((cfg0.win 0).blk t).view.emb z) = V c main_v2 (inImage n z)
  refine congrArg _ ?_
  funext a; apply Fin.ext
  match a with
  | ⟨0, _⟩ => show win0_0.index t (0 : Fin 4) * 1 + 1 * (z 0).val = n.val; have hz : (z 0).val < 1 := (z 0).isLt; omega
  | ⟨1, _⟩ => show win0_0.index t (1 : Fin 4) * 68 + 1 * (z 1).val = (z 1).val; omega
  | ⟨2, _⟩ => show win0_0.index t (2 : Fin 4) * 68 + 1 * (z 2).val = (z 2).val; omega
  | ⟨3, _⟩ => show win0_0.index t (3 : Fin 4) * 256 + 1 * (z 3).val = (z 3).val; omega

/-- The weight window's block at every point is the whole weight. -/
theorem weight_block (c : Dev nD) (t : Fin cfg0.N) : (iblk0 V c 1 t : Vec F S2304x256 .bf16) = V c main_v6 := by
  obtain ⟨-, -, -, -, -, -, e0, e1, -⟩ := point_facts t
  funext z
  show V c main_v6 (((cfg0.win 1).blk t).view.emb z) = V c main_v6 z
  refine congrArg _ ?_
  funext a; apply Fin.ext
  match a with
  | ⟨0, _⟩ => show win0_1.index t (0 : Fin 2) * 2304 + 1 * (z 0).val = (z 0).val; omega
  | ⟨1, _⟩ => show win0_1.index t (1 : Fin 2) * 256 + 1 * (z 1).val = (z 1).val; omega

/-- Block `t` of any contents `G` of the convolution array: `G` at the array index each block index sits at. -/
theorem read_conv_block (G : Vec F S8x64x64x256 .bf16) (t : Fin cfg0.N) :
    ((cfg0.win 2).blk t).view.read (Elt F) G = fun y => G (((cfg0.win 2).blk t).view.emb y) := rfl

/-- Block `t` of any contents `G` of the statistics array: `G` at the array index each block index sits at. -/
theorem read_stat_block (G : Vec F S8x8x2x256 .f32) (t : Fin cfg0.N) :
    ((cfg0.win 3).blk t).view.read (Elt F) G = fun y => G (((cfg0.win 3).blk t).view.emb y) := rfl

/-- The convolution window's blocks lie inside the array, so a write-back moves the whole staging buffer. -/
theorem cut_conv (X : Vec F S1x8x64x256 .bf16) (t : Fin cfg0.N) : (cfg0.win 2).cut (grid0.coords t) X = X := rfl

/-- The statistics window's blocks lie inside the array, so a write-back moves the whole staging buffer. -/
theorem cut_stat (X : Vec F S1x1x2x256 .f32) (t : Fin cfg0.N) : (cfg0.win 3).cut (grid0.coords t) X = X := rfl

/-- The convolution block of point `i` at block index `y` is `GC` at the array index `j` that `y` sits at in block `i`. -/
theorem convBlk_eq_GC (X : Vec F S8x68x68x256 .bf16) (Wt : Vec F S2304x256 .bf16) (i : grid0.Coords)
    (x0 : Vec F S1x68x68x256 .bf16) (x1 : Vec F S2304x256 .bf16) (j : S8x64x64x256.Idx) (y : S1x8x64x256.Idx)
    (hx0 : x0 = image X (j 0)) (hx1 : x1 = Wt)
    (hi0 : (i (0 : Fin 2)).val = (j 0).val) (hi1 : (i (1 : Fin 2)).val = (j 1).val / 8)
    (hy1 : (y 1).val = (j 1).val % 8) (hy2 : (y 2).val = (j 2).val) (hy3 : (y 3).val = (j 3).val) :
    convBlk i x0 x1 y = GC X Wt j := by
  subst hx0 hx1
  have ei : i = gridPt (j 0) ⟨(j 1).val / 8, rowBlock_lt j⟩ := by
    funext a; apply Fin.ext
    match a with
    | ⟨0, _⟩ => exact hi0
    | ⟨1, _⟩ => exact hi1
  have ey : y = inRows j := by
    funext a; apply Fin.ext
    match a with
    | ⟨0, _⟩ => show (y 0).val = 0; have h : (y 0).val < 1 := (y 0).isLt; omega
    | ⟨1, _⟩ => exact hy1
    | ⟨2, _⟩ => exact hy2
    | ⟨3, _⟩ => exact hy3
  subst ei ey
  rfl

/-- The statistics block of point `i` at block index `y` is `GS` at the array index `j` that `y` sits at in block `i`. -/
theorem statBlk_eq_GS (X : Vec F S8x68x68x256 .bf16) (Wt : Vec F S2304x256 .bf16) (i : grid0.Coords)
    (x0 : Vec F S1x68x68x256 .bf16) (x1 : Vec F S2304x256 .bf16) (j : S8x8x2x256.Idx) (y : S1x1x2x256.Idx)
    (hx0 : x0 = image X (j 0)) (hx1 : x1 = Wt)
    (hi0 : (i (0 : Fin 2)).val = (j 0).val) (hi1 : (i (1 : Fin 2)).val = (j 1).val)
    (hy2 : (y 2).val = (j 2).val) (hy3 : (y 3).val = (j 3).val) :
    statBlk i x0 x1 y = GS X Wt j := by
  subst hx0 hx1
  have ei : i = gridPt (j 0) (j 1) := by
    funext a; apply Fin.ext
    match a with
    | ⟨0, _⟩ => exact hi0
    | ⟨1, _⟩ => exact hi1
  have ey : y = inStat j := by
    funext a; apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => exact hy2
    | ⟨3, _⟩ => exact hy3
  subst ei ey
  rfl

/-- WHAT POINT `t` WRITES BACK to the convolution array is block `t` of `GC` of the padded images and the weight: block
    index `y` sits at array index `(t / 8, 8 (t % 8) + y 1, y 2, y 3)`. -/
theorem flushed_conv (c : Dev nD) (t : Fin cfg0.N) :
    (dat0 V c).flushed 2 t = ((cfg0.win 2).blk t).view.read (Elt F) (GC (V c main_v2) (V c main_v6)) := by
  show (cfg0.win 2).cut (grid0.coords t) ((dat0 V c).after 2 t) = _
  rw [after0_2]
  unfold outsAt0
  dsimp only
  rw [out_conv c (grid0.coords t) (ms0_0 t) (hs0_0 t) (ms0_1 t) (hs0_1 t) (ms0_2 t) (hs0_2 t) (ms0_3 t) (hs0_3 t) (iblk0 V c 0 t) (iblk0 V c 1 t),
    cut_conv, read_conv_block]
  obtain ⟨p0, p1, -, -, -, -, -, -, e0, e1, e2, e3, -⟩ := point_facts t
  funext y
  have hy0 : (y 0).val < 1 := (y 0).isLt
  have hy1 : (y 1).val < 8 := (y 1).isLt
  have j0 : ((((cfg0.win 2).blk t).view.emb y) 0).val = t.val / 8 := by
    show win0_2.index t (0 : Fin 4) * 1 + 1 * (y 0).val = _; omega
  have j1 : ((((cfg0.win 2).blk t).view.emb y) 1).val = t.val % 8 * 8 + (y 1).val := by
    show win0_2.index t (1 : Fin 4) * 8 + 1 * (y 1).val = _; omega
  have j2 : ((((cfg0.win 2).blk t).view.emb y) 2).val = (y 2).val := by
    show win0_2.index t (2 : Fin 4) * 64 + 1 * (y 2).val = _; omega
  have j3 : ((((cfg0.win 2).blk t).view.emb y) 3).val = (y 3).val := by
    show win0_2.index t (3 : Fin 4) * 256 + 1 * (y 3).val = _; omega
  exact convBlk_eq_GC (V c main_v2) (V c main_v6) (grid0.coords t) (iblk0 V c 0 t) (iblk0 V c 1 t)
    (((cfg0.win 2).blk t).view.emb y) y
    (image_block V c t _ j0) (weight_block V c t)
    (by rw [j0]; exact p0) (by rw [j1]; omega) (by rw [j1]; omega) j2.symm j3.symm

/-- WHAT POINT `t` WRITES BACK to the statistics array is block `t` of `GS` of the padded images and the weight: block
    index `y` sits at array index `(t / 8, t % 8, y 2, y 3)`. -/
theorem flushed_stat (c : Dev nD) (t : Fin cfg0.N) :
    (dat0 V c).flushed 3 t = ((cfg0.win 3).blk t).view.read (Elt F) (GS (V c main_v2) (V c main_v6)) := by
  show (cfg0.win 3).cut (grid0.coords t) ((dat0 V c).after 3 t) = _
  rw [after0_3]
  unfold outsAt0
  dsimp only
  rw [out_stat c (grid0.coords t) (ms0_0 t) (hs0_0 t) (ms0_1 t) (hs0_1 t) (ms0_2 t) (hs0_2 t) (ms0_3 t) (hs0_3 t) (iblk0 V c 0 t) (iblk0 V c 1 t),
    cut_stat, read_stat_block]
  obtain ⟨p0, p1, -, -, -, -, -, -, -, -, -, -, e0, e1, e2, e3⟩ := point_facts t
  funext y
  have hy0 : (y 0).val < 1 := (y 0).isLt
  have hy1 : (y 1).val < 1 := (y 1).isLt
  have j0 : ((((cfg0.win 3).blk t).view.emb y) 0).val = t.val / 8 := by
    show win0_3.index t (0 : Fin 4) * 1 + 1 * (y 0).val = _; omega
  have j1 : ((((cfg0.win 3).blk t).view.emb y) 1).val = t.val % 8 := by
    show win0_3.index t (1 : Fin 4) * 1 + 1 * (y 1).val = _; omega
  have j2 : ((((cfg0.win 3).blk t).view.emb y) 2).val = (y 2).val := by
    show win0_3.index t (2 : Fin 4) * 2 + 1 * (y 2).val = _; omega
  have j3 : ((((cfg0.win 3).blk t).view.emb y) 3).val = (y 3).val := by
    show win0_3.index t (3 : Fin 4) * 256 + 1 * (y 3).val = _; omega
  exact statBlk_eq_GS (V c main_v2) (V c main_v6) (grid0.coords t) (iblk0 V c 0 t) (iblk0 V c 1 t)
    (((cfg0.win 3).blk t).view.emb y) y
    (image_block V c t _ j0) (weight_block V c t)
    (by rw [j0]; exact p0) (by rw [j1]; exact p1) j2.symm j3.symm

end Point

/-! ## The blocks tile the arrays -/

/-- An index of the convolution array is in point `t`'s block iff each coordinate is in the block's range on its axis. -/
theorem mem_conv_block (t : Fin cfg0.N) (j : S8x64x64x256.Idx) :
    j ∈ ((cfg0.win 2).blk t).view.set ↔ ∀ a : Fin 4, win0_2.index t a * S1x8x64x256.size a ≤ (j a).val ∧ (j a).val < win0_2.index t a * S1x8x64x256.size a + S1x8x64x256.size a := by
  show j ∈ ((View.whole main_v7_0).slice (win0_2.rect t)).set ↔ _
  rw [View.set_slice_whole, Rect.mem_set_unit]
  exact Iff.rfl

/-- An index of the statistics array is in point `t`'s block iff each coordinate is in the block's range on its axis. -/
theorem mem_stat_block (t : Fin cfg0.N) (j : S8x8x2x256.Idx) :
    j ∈ ((cfg0.win 3).blk t).view.set ↔ ∀ a : Fin 4, win0_3.index t a * S1x1x2x256.size a ≤ (j a).val ∧ (j a).val < win0_3.index t a * S1x1x2x256.size a + S1x1x2x256.size a := by
  show j ∈ ((View.whole main_v7_1).slice (win0_3.rect t)).set ↔ _
  rw [View.set_slice_whole, Rect.mem_set_unit]
  exact Iff.rfl

/-- Row `r` of image `n` of the convolution array is under the block of point `8n + r / 8`. -/
theorem cover_conv (j : S8x64x64x256.Idx) :
    ∃ t : Fin cfg0.N, (cfg0.win 2).flush t = true ∧ j ∈ ((cfg0.win 2).blk t).view.set := by
  have h0 : (j 0).val < 8 := (j 0).isLt
  have h1 : (j 1).val < 64 := (j 1).isLt
  have h2 : (j 2).val < 64 := (j 2).isLt
  have h3 : (j 3).val < 256 := (j 3).isLt
  have hN : cfg0.N = 64 := N_0
  obtain ⟨t, ht⟩ : ∃ t : Fin cfg0.N, t.val = (j 0).val * 8 + (j 1).val / 8 :=
    ⟨⟨(j 0).val * 8 + (j 1).val / 8, by rw [hN]; omega⟩, rfl⟩
  obtain ⟨-, -, -, -, -, -, -, -, e0, e1, e2, e3, -⟩ := point_facts t
  refine ⟨t, flush0_2 t, ?_⟩
  rw [mem_conv_block]
  intro a
  match a with
  | ⟨0, _⟩ => show win0_2.index t (0 : Fin 4) * 1 ≤ (j 0).val ∧ (j 0).val < win0_2.index t (0 : Fin 4) * 1 + 1; omega
  | ⟨1, _⟩ => show win0_2.index t (1 : Fin 4) * 8 ≤ (j 1).val ∧ (j 1).val < win0_2.index t (1 : Fin 4) * 8 + 8; omega
  | ⟨2, _⟩ => show win0_2.index t (2 : Fin 4) * 64 ≤ (j 2).val ∧ (j 2).val < win0_2.index t (2 : Fin 4) * 64 + 64; omega
  | ⟨3, _⟩ => show win0_2.index t (3 : Fin 4) * 256 ≤ (j 3).val ∧ (j 3).val < win0_2.index t (3 : Fin 4) * 256 + 256; omega

/-- Entry `(n, h, ·, ·)` of the statistics array is under the block of point `8n + h`. -/
theorem cover_stat (j : S8x8x2x256.Idx) :
    ∃ t : Fin cfg0.N, (cfg0.win 3).flush t = true ∧ j ∈ ((cfg0.win 3).blk t).view.set := by
  have h0 : (j 0).val < 8 := (j 0).isLt
  have h1 : (j 1).val < 8 := (j 1).isLt
  have h2 : (j 2).val < 2 := (j 2).isLt
  have h3 : (j 3).val < 256 := (j 3).isLt
  have hN : cfg0.N = 64 := N_0
  obtain ⟨t, ht⟩ : ∃ t : Fin cfg0.N, t.val = (j 0).val * 8 + (j 1).val :=
    ⟨⟨(j 0).val * 8 + (j 1).val, by rw [hN]; omega⟩, rfl⟩
  obtain ⟨-, -, -, -, -, -, -, -, -, -, -, -, e0, e1, e2, e3⟩ := point_facts t
  refine ⟨t, flush0_3 t, ?_⟩
  rw [mem_stat_block]
  intro a
  match a with
  | ⟨0, _⟩ => show win0_3.index t (0 : Fin 4) * 1 ≤ (j 0).val ∧ (j 0).val < win0_3.index t (0 : Fin 4) * 1 + 1; omega
  | ⟨1, _⟩ => show win0_3.index t (1 : Fin 4) * 1 ≤ (j 1).val ∧ (j 1).val < win0_3.index t (1 : Fin 4) * 1 + 1; omega
  | ⟨2, _⟩ => show win0_3.index t (2 : Fin 4) * 2 ≤ (j 2).val ∧ (j 2).val < win0_3.index t (2 : Fin 4) * 2 + 2; omega
  | ⟨3, _⟩ => show win0_3.index t (3 : Fin 4) * 256 ≤ (j 3).val ∧ (j 3).val < win0_3.index t (3 : Fin 4) * 256 + 256; omega

end Reg0

/-! ## The arrays after the region -/

/-- The convolution array after the region is `GC` of the padded images and the weight as the region finds them. -/
theorem final0_2 (V : (c : Dev nD) → (b : Ref sig .tc) → Buf (Elt F) ((c : Thread nD τ).loc b)) (c : Dev nD) :
    (dat0 (F := F) V c).arrAt 2 cfg0.N = GC (V c main_v2) (V c main_v6) :=
  (dat0 V c).arrAt_eq_of_cover 2 _ (fun t _ => flushed_conv V c t) cover_conv

/-- The statistics array after the region is `GS` of the padded images and the weight as the region finds them. -/
theorem final0_3 (V : (c : Dev nD) → (b : Ref sig .tc) → Buf (Elt F) ((c : Thread nD τ).loc b)) (c : Dev nD) :
    (dat0 (F := F) V c).arrAt 3 cfg0.N = GS (V c main_v2) (V c main_v6) :=
  (dat0 V c).arrAt_eq_of_cover 3 _ (fun t _ => flushed_stat V c t) cover_stat

end Cert.KernelIdeal.Val

end
-- ==== Proof.KReg1.lean ====
/- Region 1 of the kernel's program, read as a function of its input arrays.
   The region walks an 8 × 8 grid. At point (n, h) it takes rows 8h … 8h+7 of image n of the convolution array
   A : [8, 64, 64, 256] (a block [1, 8, 64, 256]), the whole scale row s : [1, 256] and the whole shift row b : [1, 256],
   and writes the block of the same place of the result array. Entry by entry the block written is
   max (A · s[channel] + b[channel], 0), the bf16 entry of A widened to f32 first. The 64 blocks tile the result array,
   so after the region it holds GB A s b, the same formula at every index (n, r, w, ch). -/
import proofs.«155494_g2000402634760427_pallasbulk_1319_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable {F : FTy → Type} [FloatOps F]

/-- Scale, shift, clamp at zero, entry by entry: the entry at (n, h, w, ch) of the result is
    max (A (n, h, w, ch) · s (0, ch) + b (0, ch), 0), the convolution's entry widened to f32 first. -/
def GB (A : Vec F S8x64x64x256 .bf16) (s : Vec F S1x256 .f32) (b : Vec F S1x256 .f32) : Vec F S8x64x64x256 .f32 := fun j =>
  FloatOps.maximumf
    (FloatOps.addf (FloatOps.mulf (FloatOps.extf .f32 bitsLt_bf16_f32 (A j)) (s (ix2 (0 : Fin 1) (j 3)))) (b (ix2 (0 : Fin 1) (j 3))))
    (Scalar.ofBits .f32 0x00000000#32)

namespace Reg1

/-- A row [1, 1, c] broadcast to [a, b, c] reads, at (p, q, ch), the row's entry at ch. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (p : Fin a) (q : Fin b) (ch : Fin c) :
    broadcastTo ⟨3, ![a, b, c]⟩ v h (ix3 p q ch) = v (ix3 (0 : Fin 1) (0 : Fin 1) ch) := by
  refine broadcastTo_apply v h (ix3 p q ch) (ix3 (0 : Fin 1) (0 : Fin 1) ch) fun ax => ?_
  match ax with
  | ⟨0, _⟩ => rfl
  | ⟨1, _⟩ => rfl
  | ⟨2, _⟩ =>
    show ch.val = if c = 1 then 0 else ch.val
    split
    · have := ch.isLt; omega
    · rfl

/-- The body's stored block, entry by entry: at (0, h, w, ch) it is the loaded block's entry, widened, times the
    scale row's entry at ch plus the shift row's entry at ch, clamped below at zero. -/
theorem pay_apply (v0 : Vec F S1x8x64x256 .bf16) (v3 v8 : Vec F S1x256 .f32) (u : Fin 1) (h : Fin 8) (w : Fin 64) (ch : Fin 256) :
    k1_pay1 v0 v3 v8 (ix4 u h w ch) =
      FloatOps.maximumf
        (FloatOps.addf (FloatOps.mulf (FloatOps.extf .f32 bitsLt_bf16_f32 (v0 (ix4 (0 : Fin 1) h w ch))) (v3 (ix2 (0 : Fin 1) ch))) (v8 (ix2 (0 : Fin 1) ch)))
        (Scalar.ofBits .f32 0x00000000#32) := by
  unfold k1_pay1
  refine (shapeCast_abc_1abc_apply _ _ u h w ch).trans ?_
  show FloatOps.maximumf (FloatOps.addf (FloatOps.mulf (FloatOps.extf .f32 bitsLt_bf16_f32 (shapeCast S8x64x256 v0 shapeCasts_S1x8x64x256_S8x64x256 (ix3 h w ch)))
      (broadcastTo S8x64x256 (shapeCast S1x1x256 (shapeCast S1x256 v3 shapeCasts_S1x256_S1x256) shapeCasts_S1x256_S1x1x256) broadcasts_S1x1x256_S8x64x256 (ix3 h w ch)))
      (broadcastTo S8x64x256 (shapeCast S1x1x256 (shapeCast S1x256 v8 shapeCasts_S1x256_S1x256) shapeCasts_S1x256_S1x1x256) broadcasts_S1x1x256_S8x64x256 (ix3 h w ch)))
      (Scalar.ofBits .f32 0x00000000#32) = _
  rw [shapeCast_1abc_abc_apply, broadcastTo_11c_abc_apply, broadcastTo_11c_abc_apply, shapeCast_ab_1ab_apply, shapeCast_ab_1ab_apply,
    shapeCast_self, shapeCast_self]

/-- The stored block at a block index y is the result's entry at an array index i, when the three loaded blocks
    read, at y and at y's channel, what the arrays hold at i and at i's channel. -/
theorem pay_eq_GB (A : Vec F S8x64x64x256 .bf16) (s b : Vec F S1x256 .f32)
    (x0 : Vec F S1x8x64x256 .bf16) (x1 x2 : Vec F S1x256 .f32) (y : S1x8x64x256.Idx) (i : S8x64x64x256.Idx)
    (h0 : x0 y = A i)
    (h1 : x1 (ix2 (0 : Fin 1) (y 3)) = s (ix2 (0 : Fin 1) (i 3)))
    (h2 : x2 (ix2 (0 : Fin 1) (y 3)) = b (ix2 (0 : Fin 1) (i 3))) :
    k1_pay1 x0 x1 x2 y = GB A s b i := by
  obtain ⟨u, h, w, ch, rfl⟩ : ∃ (u : Fin 1) (h : Fin 8) (w : Fin 64) (ch : Fin 256), y = ix4 u h w ch :=
    ⟨y 0, y 1, y 2, y 3, eq_ix4 y⟩
  have hu : u = 0 := Fin.ext (by have := u.isLt; show u.val = 0; omega)
  subst hu
  rw [pay_apply]
  unfold GB
  rw [← h0]
  show _ = FloatOps.maximumf (FloatOps.addf (FloatOps.mulf _ (s (ix2 (0 : Fin 1) (i 3)))) (b (ix2 (0 : Fin 1) (i 3)))) _
  rw [← h1, ← h2]

/-! ## From the blocks to the array -/

theorem zero_off4 : (![0, 0, 0, 0] : Fin 4 → Nat) = fun _ => 0 := funext fun a => by fin_cases a <;> rfl
theorem zero_off2 : (![0, 0] : Fin 2 → Nat) = fun _ => 0 := funext fun a => by fin_cases a <;> rfl

/-- The windows' index maps over the 8 × 8 grid: at every point the convolution's block and the result's block sit at
    the same block index, (n, h, 0, 0), and the scale and shift rows are block (0, 0) of their arrays. -/
theorem block_index_facts : ∀ t : Fin cfg1.N,
    win1_0.index t (0 : Fin 4) = win1_3.index t (0 : Fin 4)
    ∧ win1_0.index t (1 : Fin 4) = win1_3.index t (1 : Fin 4)
    ∧ win1_0.index t (2 : Fin 4) = 0 ∧ win1_0.index t (3 : Fin 4) = 0
    ∧ win1_3.index t (2 : Fin 4) = 0 ∧ win1_3.index t (3 : Fin 4) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block index (n, h, 0, 0) with n, h < 8 is some grid point's. -/
theorem block_index_onto : ∀ (q0 : Fin 8) (q1 : Fin 8), ∃ t : Fin cfg1.N, win1_3.index t = ![q0.val, q1.val, 0, 0] :=
  (by decide +kernel : ∀ (q0 : Fin 8) (q1 : Fin 8), ∃ t : Fin grid1.N, win1_3.index t = ![q0.val, q1.val, 0, 0])

/-- What point t writes back is block t of GB of the three arrays as the region finds them. -/
theorem flushed1_3_eq (V : (c : Dev nD) → (b : Ref sig .tc) → Buf (Elt F) ((c : Thread nD τ).loc b)) (c : Dev nD) (t : Fin cfg1.N) :
    (dat1 (F := F) V c).flushed 3 t
      = ((cfg1.win 3).blk t).view.read (Elt F) (GB (V c main_v7_0) (V c main_v27) (V c main_v31)) := by
  show (cfg1.win 3).cut (grid1.coords t) ((dat1 V c).after 3 t) = _
  rw [after1_3]
  unfold out1_3
  rw [View.canon_unit_zero zero_off4]
  simp only [View.ld_unit_zero (S := S1x8x64x256) zero_off4, View.ld_unit_zero (S := S1x256) zero_off2]
  obtain ⟨e0, e1, e2, e3, e4, e5, e6, e7, e8, e9⟩ := block_index_facts t
  funext y
  refine pay_eq_GB (V c main_v7_0) (V c main_v27) (V c main_v31) (iblk1 V c 0 t) (iblk1 V c 1 t) (iblk1 V c 2 t) y
    (((cfg1.win 3).blk t).view.emb y) ?_ ?_ ?_
  · show V c main_v7_0 (((cfg1.win 0).blk t).view.emb y) = V c main_v7_0 (((cfg1.win 3).blk t).view.emb y)
    refine congrArg _ (funext fun a => Fin.ext ?_)
    match a with
    | ⟨0, _⟩ => show win1_0.index t (0 : Fin 4) * 1 + 1 * (y 0).val = win1_3.index t (0 : Fin 4) * 1 + 1 * (y 0).val; omega
    | ⟨1, _⟩ => show win1_0.index t (1 : Fin 4) * 8 + 1 * (y 1).val = win1_3.index t (1 : Fin 4) * 8 + 1 * (y 1).val; omega
    | ⟨2, _⟩ => show win1_0.index t (2 : Fin 4) * 64 + 1 * (y 2).val = win1_3.index t (2 : Fin 4) * 64 + 1 * (y 2).val; omega
    | ⟨3, _⟩ => show win1_0.index t (3 : Fin 4) * 256 + 1 * (y 3).val = win1_3.index t (3 : Fin 4) * 256 + 1 * (y 3).val; omega
  · show V c main_v27 (((cfg1.win 1).blk t).view.emb (ix2 (0 : Fin 1) (y 3))) = V c main_v27 (ix2 (0 : Fin 1) (((cfg1.win 3).blk t).view.emb y 3))
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * (y 3).val = win1_3.index t (3 : Fin 4) * 256 + 1 * (y 3).val; omega
  · show V c main_v31 (((cfg1.win 2).blk t).view.emb (ix2 (0 : Fin 1) (y 3))) = V c main_v31 (ix2 (0 : Fin 1) (((cfg1.win 3).blk t).view.emb y 3))
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * (y 3).val = win1_3.index t (3 : Fin 4) * 256 + 1 * (y 3).val; omega

/-- An index of the result array is in point t's block iff each coordinate is in the block's range on its axis. -/
theorem mem_block1_3 (t : Fin cfg1.N) (i : S8x64x64x256.Idx) :
    i ∈ ((cfg1.win 3).blk t).view.set ↔ ∀ a : Fin 4, win1_3.index t a * S1x8x64x256.size a ≤ (i a).val ∧ (i a).val < win1_3.index t a * S1x8x64x256.size a + S1x8x64x256.size a := by
  show i ∈ ((View.whole main_v32).slice (win1_3.rect t)).set ↔ _
  rw [View.set_slice_whole, Rect.mem_set_unit]
  exact Iff.rfl

/-- Every index (n, r, w, ch) of the result array is in the block of the point with block index (n, r / 8, 0, 0). -/
theorem cover1_3_all (i : S8x64x64x256.Idx) :
    ∃ t : Fin cfg1.N, (cfg1.win 3).flush t = true ∧ i ∈ ((cfg1.win 3).blk t).view.set := by
  have hi0 : (i 0).val < 8 := (i 0).isLt
  have hi1 : (i 1).val < 64 := (i 1).isLt
  have hi2 : (i 2).val < 64 := (i 2).isLt
  have hi3 : (i 3).val < 256 := (i 3).isLt
  obtain ⟨t, ht⟩ := block_index_onto ⟨(i 0).val, hi0⟩ ⟨(i 1).val / 8, by omega⟩
  have q0 : win1_3.index t (0 : Fin 4) = (i 0).val := congrFun ht 0
  have q1 : win1_3.index t (1 : Fin 4) = (i 1).val / 8 := congrFun ht 1
  have q2 : win1_3.index t (2 : Fin 4) = 0 := congrFun ht 2
  have q3 : win1_3.index t (3 : Fin 4) = 0 := congrFun ht 3
  refine ⟨t, flush1_3 t, ?_⟩
  rw [mem_block1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 8 ≤ (i 1).val ∧ (i 1).val < win1_3.index t (1 : Fin 4) * 8 + 8; omega
  | ⟨2, _⟩ => show win1_3.index t (2 : Fin 4) * 64 ≤ (i 2).val ∧ (i 2).val < win1_3.index t (2 : Fin 4) * 64 + 64; omega
  | ⟨3, _⟩ => show win1_3.index t (3 : Fin 4) * 256 ≤ (i 3).val ∧ (i 3).val < win1_3.index t (3 : Fin 4) * 256 + 256; omega

end Reg1

/-- The result array after the region: GB of the convolution, scale and shift arrays as the region finds them. -/
theorem final1_3 (V : (c : Dev nD) → (b : Ref sig .tc) → Buf (Elt F) ((c : Thread nD τ).loc b)) (c : Dev nD) :
    (dat1 (F := F) V c).arrAt 3 cfg1.N = GB (V c main_v7_0) (V c main_v27) (V c main_v31) :=
  (dat1 V c).arrAt_eq_of_cover 3 _ (fun t _ => Reg1.flushed1_3_eq V c t) Reg1.cover1_3_all

end Cert.KernelIdeal.Val

end
-- ==== Proof.KHost.lean ====
import proofs.«155494_g2000402634760427_pallasbulk_1319_1_alg».proof.Proof.Gen.KernelIdeal.Frame
import Idealize.ShloMosaic.Lib.StableHlo.Run

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-! # The host stretches of @main read as functions

Each definition is the tree of operations one stretch of host operations computes, from the
buffers it reads to the buffer it leaves; nothing is evaluated. -/

/-- The padding value every called pad function uses: the integer literal 0 converted to f32. -/
def hostZero : Vec F S_ .f32 := sitofp .f32 (constantI S_ 32 0#32)

/-- The image as region 0 reads it: NCHW to NHWC (entry (n, h, w, ch) reads x (n, ch, h, w)),
    two zeros before and after each of the two spatial axes (64 becomes 68), then the cast to bf16. -/
def pre0 (x : Vec F S8x256x64x64 .f32) : Vec F S8x68x68x256 .bf16 :=
  truncf .bf16
    (pad S8x68x68x256 ![0, 2, 2, 0] ![0, 2, 2, 0] ![0, 0, 0, 0]
      (transpose S8x64x64x256 [0, 2, 3, 1] x transposes_S8x256x64x64_S8x64x64x256_0_2_3_1)
      hostZero pads_S8x64x64x256_S8x68x68x256_000_220_220_000 h_S_)
    bitsLt_bf16_f32

/-- The weight as region 0 reads it: (o, i, kh, kw) to (kh, kw, i, o), a pad of width zero on every
    axis, the first three axes flattened row-major (3 * 3 * 256 = 2304 rows), then the cast to bf16. -/
def pre1 (w : Vec F S256x256x3x3 .f32) : Vec F S2304x256 .bf16 :=
  truncf .bf16
    (shapeCast S2304x256
      (pad S3x3x256x256 ![0, 0, 0, 0] ![0, 0, 0, 0] ![0, 0, 0, 0]
        (transpose S3x3x256x256 [2, 3, 1, 0] w transposes_S256x256x3x3_S3x3x256x256_2_3_1_0)
        hostZero pads_S3x3x256x256_S3x3x256x256_000_000_000_000 h_S_)
      shapeCasts_S3x3x256x256_S2304x256)
    bitsLt_bf16_f32

/-- The partial statistics summed over the batch axis and the row-block axis:
    row 0 is the per-channel sum, row 1 the per-channel sum of squares. -/
def hostSums (st : Vec F S8x8x2x256 .f32) : Vec F S2x256 .f32 :=
  Host.reduceAdd st (constant S_ .f32 0x00000000#32) reducesTo_S8x8x2x256_S2x256_d0_1 h_S_

/-- The number of entries per channel, 8 * 64 * 64 = 32768, on every channel. -/
def hostCount : Vec F S256 .f32 :=
  broadcastInDim S256 ![] bcast_S_S256 (constant S_ .f32 0x47000000#32)

/-- The per-channel mean: row 0 of the sums over the count. -/
def hostMean (st : Vec F S8x8x2x256 .f32) : Vec F S256 .f32 :=
  Host.divf
    (shapeCast S256 (extractStridedSlice S1x256 ![0, 0] (hostSums st) slices_S2x256_S1x256_0_0) shapeCasts_S1x256_S256)
    hostCount

/-- The per-channel mean of squares: row 1 of the sums over the count. -/
def hostMeanSq (st : Vec F S8x8x2x256 .f32) : Vec F S256 .f32 :=
  Host.divf
    (shapeCast S256 (extractStridedSlice S1x256 ![1, 0] (hostSums st) slices_S2x256_S1x256_1_0) shapeCasts_S1x256_S256)
    hostCount

/-- One over the standard deviation: rsqrt (max (E[x²] - E[x]², 0) + ε), ε the literal 0x3727C5AC. -/
def hostInvStd (st : Vec F S8x8x2x256 .f32) : Vec F S256 .f32 :=
  Host.rsqrt
    (addf
      (maximumf
        (subf (hostMeanSq st) (mulf (hostMean st) (hostMean st)))
        (broadcastInDim S256 ![] bcast_S_S256 (constant S_ .f32 0x00000000#32)))
      (broadcastInDim S256 ![] bcast_S_S256 (constant S_ .f32 0x3727C5AC#32)))

/-- A per-channel parameter through the called pad function of width zero. -/
def hostPad1 (g : Vec F S256 .f32) : Vec F S256 .f32 :=
  pad S256 ![0] ![0] ![0] g hostZero pads_S256_S256_000 h_S_

/-- The scale of region 1: γ / σ, as one row. -/
def scaleOf (st : Vec F S8x8x2x256 .f32) (g : Vec F S256 .f32) : Vec F S1x256 .f32 :=
  shapeCast S1x256 (mulf (hostPad1 g) (hostInvStd st)) shapeCasts_S256_S1x256

/-- The shift of region 1: β - μ γ / σ, as one row. -/
def shiftOf (st : Vec F S8x8x2x256 .f32) (g : Vec F S256 .f32) (b : Vec F S256 .f32) : Vec F S1x256 .f32 :=
  shapeCast S1x256
    (subf (hostPad1 b) (mulf (mulf (hostMean st) (hostPad1 g)) (hostInvStd st)))
    shapeCasts_S256_S1x256

/-- The result: NHWC back to NCHW (entry (n, ch, h, w) reads o (n, h, w, ch)). -/
def tailT (o : Vec F S8x64x64x256 .f32) : Vec F S8x256x64x64 .f32 :=
  transpose S8x256x64x64 [0, 3, 1, 2] o transposes_S8x64x64x256_S8x256x64x64_0_3_1_2

variable (m : (ℓ : Loc nD τ sig) → Buf (Elt F) ℓ) (ρ : Dev nD → PrngReg)

/-! ## Before region 0 -/

/-- The padded image at region 0's entry is `pre0` of the launch's first argument. -/
theorem W5_x (c : Dev nD) : W5 m ρ c (Proc.devRef .tc main_v2) = pre0 (m ((c : Thread nD τ).loc main_arg0)) := by
  dsimp only [W5, W4, W3, W2, W1, hostOps0, hostOps0_1, hostOps0_2, hostOps0_3, hostOps0_4]
  after_results
  rfl

/-- The weight matrix at region 0's entry is `pre1` of the launch's second argument. -/
theorem W5_w (c : Dev nD) : W5 m ρ c (Proc.devRef .tc main_v6) = pre1 (m ((c : Thread nD τ).loc main_arg1)) := by
  dsimp only [W5, W4, W3, W2, W1, hostOps0, hostOps0_1, hostOps0_2, hostOps0_3, hostOps0_4]
  after_results
  rfl

/-! ## Between the regions -/

/-- A buffer neither region 0 nor any host operation before it writes holds at region 0's exit
    what the launch put there: the two per-channel parameters. -/
theorem W6_arg2 (c : Dev nD) : W6 m ρ c (Proc.devRef .tc main_arg2) = m ((c : Thread nD τ).loc main_arg2) := by
  rw [W6_of_ne m ρ c main_arg2 (by decide)]
  dsimp only [W5, W4, W3, W2, W1, hostOps0, hostOps0_1, hostOps0_2, hostOps0_3, hostOps0_4]
  after_results

theorem W6_arg3 (c : Dev nD) : W6 m ρ c (Proc.devRef .tc main_arg3) = m ((c : Thread nD τ).loc main_arg3) := by
  rw [W6_of_ne m ρ c main_arg3 (by decide)]
  dsimp only [W5, W4, W3, W2, W1, hostOps0, hostOps0_1, hostOps0_2, hostOps0_3, hostOps0_4]
  after_results

/-- No host operation between the regions writes the convolution's array. -/
theorem W11_conv (c : Dev nD) : W11 m ρ c (Proc.devRef .tc main_v7_0) = W6 m ρ c (Proc.devRef .tc main_v7_0) := by
  dsimp only [W11, W10, W9, W8, W7, hostOps1, hostOps1_1, hostOps1_2, hostOps1_3, hostOps1_4]
  after_results

/-- The scale at region 1's entry, from region 0's statistics and γ. -/
theorem W11_scale (c : Dev nD) : W11 m ρ c (Proc.devRef .tc main_v27) = scaleOf (W6 m ρ c (Proc.devRef .tc main_v7_1)) (m ((c : Thread nD τ).loc main_arg2)) := by
  dsimp only [W11, W10, W9, W8, W7, hostOps1, hostOps1_1, hostOps1_2, hostOps1_3, hostOps1_4]
  after_results_simp
  rw [W6_arg2]
  rfl

/-- The shift at region 1's entry, from region 0's statistics, γ and β. -/
theorem W11_shift (c : Dev nD) : W11 m ρ c (Proc.devRef .tc main_v31) = shiftOf (W6 m ρ c (Proc.devRef .tc main_v7_1)) (m ((c : Thread nD τ).loc main_arg2)) (m ((c : Thread nD τ).loc main_arg3)) := by
  dsimp only [W11, W10, W9, W8, W7, hostOps1, hostOps1_1, hostOps1_2, hostOps1_3, hostOps1_4]
  after_results_simp
  rw [W6_arg2, W6_arg3]
  rfl

/-! ## After region 1 -/

/-- The result is the transpose of region 1's output. -/
theorem W13_res (c : Dev nD) : W13 m ρ c (Proc.devRef .tc main_v33) = tailT (W12 m ρ c (Proc.devRef .tc main_v32)) := by
  dsimp only [W13, hostOps2]
  after_results
  rfl

end Cert.KernelIdeal.Val

end
-- ==== Proof.KValue.lean ====
import proofs.«155494_g2000402634760427_pallasbulk_1319_1_alg».proof.Proof.KReg0
import proofs.«155494_g2000402634760427_pallasbulk_1319_1_alg».proof.Proof.KReg1
import proofs.«155494_g2000402634760427_pallasbulk_1319_1_alg».proof.Proof.KHost

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-- The whole program as one function of its four argument arrays: the convolution and its per-slab
    statistics of the padded image and the flattened weight, the per-channel scale and shift from the
    statistics, the affine map with the clamp at zero, and the final change of layout. -/
def total (x : Vec F S8x256x64x64 .f32) (w : Vec F S256x256x3x3 .f32) (g : Vec F S256 .f32) (b : Vec F S256 .f32) :
    Vec F S8x256x64x64 .f32 :=
  tailT (GB (GC (pre0 x) (pre1 w)) (scaleOf (GS (pre0 x) (pre1 w)) g) (shiftOf (GS (pre0 x) (pre1 w)) g b))

variable (m : (ℓ : Loc nD τ sig) → Buf (Elt F) ℓ) (ρ : Dev nD → PrngReg)

/-- The convolution array when the first region is left: the first region's output of the padded image and the
    flattened weight the host operations before it computed. -/
theorem W6_conv (c : Dev nD) : W6 m ρ c (Proc.devRef .tc main_v7_0)
    = GC (pre0 (m ((c : Thread nD τ).loc main_arg0))) (pre1 (m ((c : Thread nD τ).loc main_arg1))) := by
  rw [← W5_x m ρ c, ← W5_w m ρ c]
  exact (W6_arr m ρ c 2).trans (final0_2 (V5 m ρ) c)

/-- The statistics array when the first region is left. -/
theorem W6_stats (c : Dev nD) : W6 m ρ c (Proc.devRef .tc main_v7_1)
    = GS (pre0 (m ((c : Thread nD τ).loc main_arg0))) (pre1 (m ((c : Thread nD τ).loc main_arg1))) := by
  rw [← W5_x m ρ c, ← W5_w m ρ c]
  exact (W6_arr m ρ c 3).trans (final0_3 (V5 m ρ) c)

/-- The second region's output array when it is left. -/
theorem W12_out (c : Dev nD) : W12 m ρ c (Proc.devRef .tc main_v32)
    = GB (W11 m ρ c (Proc.devRef .tc main_v7_0)) (W11 m ρ c (Proc.devRef .tc main_v27)) (W11 m ρ c (Proc.devRef .tc main_v31)) :=
  (W12_arr m ρ c 3).trans (final1_3 (V11 m ρ) c)

/-- The result array at the end of the run is `total` of the argument arrays as launched. -/
theorem W13_eq (c : Dev nD) : W13 m ρ c (Proc.devRef .tc main_v33)
    = total (m ((c : Thread nD τ).loc main_arg0)) (m ((c : Thread nD τ).loc main_arg1))
        (m ((c : Thread nD τ).loc main_arg2)) (m ((c : Thread nD τ).loc main_arg3)) := by
  rw [W13_res m ρ c, W12_out m ρ c, W11_conv m ρ c, W11_scale m ρ c, W11_shift m ρ c, W6_conv m ρ c, W6_stats m ρ c]
  rfl

end Cert.KernelIdeal.Val

end
-- ==== Proof.RReg0.lean ====
import proofs.«155494_g2000402634760427_pallasbulk_1319_1_alg».proof.Proof.Gen.ReferenceIdeal.Frame
import Idealize.ShloMosaic.Lib.Pipeline.Value
import Idealize.ShloMosaic.Lib.ValueIdx

/-!
# The reference's first region: the same dilated 3×3 convolution with per-block channel statistics, in one format

The reference runs the same region as the kernel, over the same 8 × 8 grid and with the same blocks, but keeps every
value in the 32-bit format: point `(n, h)` takes the whole padded image `n` (68 × 68 × 256) and the whole weight
matrix (2304 × 256), and produces rows `8h … 8h + 7` of image `n` of the convolution (an 8 × 64 × 256 block) together
with one 2 × 256 block of statistics: per channel the sum and the sum of squares of that block's 512 values. The nine
taps are nine 8 × 64 × 256 slabs of the padded image, at row offsets `8h + {0, 2, 4}` and column offsets `{0, 2, 4}`,
each flattened to 512 × 256, laid side by side (512 × 2304) and multiplied by the weight matrix.

Here, in the same shape as for the kernel so that the two can be set side by side: the two blocks of a point
(`Reg0.convBlk`, `Reg0.statBlk`), the two result arrays `GC` and `GS` as functions of all eight padded images and
the weight — entry `(n, r, ·, ·)` of the convolution lies in the block of point `(n, r / 8)` at row `r % 8`; entry
`(n, h, ·, ·)` of the statistics lies in the block of point `(n, h)` —, and the proof that these are what the region
leaves in its two result arrays: every point writes back its block of `GC` (of `GS`), and the 64 blocks tile each array.
-/

set_option maxRecDepth 16384

noncomputable section

namespace Cert.ReferenceIdeal.Val

open Idealize.ShloMosaic Idealize.ShloMosaic.TcCoe Idealize.ShloMosaic.Tactic Idealize.SL.Sem
open Idealize.ShloMosaic.Pipeline (Dat Cfg Window)
open Cert.ReferenceIdeal Cert.ReferenceIdeal.Gen

variable {F : FTy → Type} [FloatOps F]

namespace Reg0

/-! ## The two blocks of one grid point -/

/-- Eight rows by sixty-four columns of one padded image, all channels, with its corner at `off`. -/
abbrev slab (x0 : Vec F S1x68x68x256 .f32) (off : Fin 4 → Nat)
    (inb : ∀ a, off a + S1x8x64x256.size a ≤ S1x68x68x256.size a) : Vec F S1x8x64x256 .f32 :=
  View.ld x0 (Rect.unit (s := S1x68x68x256) off S1x8x64x256.size inb)

/-- The convolution block of grid point `i = (n, h)`: output rows `8h … 8h + 7` of image `n`. The nine taps of the
    dilated 3×3 stencil are the slabs of the padded image `x0` at row offsets `8h + {0, 2, 4}` and column offsets
    `{0, 2, 4}`; flattened and laid side by side they form a 512 × 2304 matrix, which is multiplied by the weight
    matrix `x1`. -/
def convBlk (i : grid0.Coords) (x0 : Vec F S1x68x68x256 .f32) (x1 : Vec F S2304x256 .f32) : Vec F S1x8x64x256 .f32 :=
  k0_pay2
    (k0_pay4 (slab x0 (k0_off1 i 0#32) (k0_off1_inb i 0)))
    (k0_pay5 (slab x0 (k0_off2 i 0#32) (k0_off2_inb i 0)))
    (k0_pay6 (slab x0 (k0_off3 i 0#32) (k0_off3_inb i 0)))
    (k0_pay7 (slab x0 (k0_off1 i 2#32) (k0_off1_inb i 1)))
    (k0_pay8 (slab x0 (k0_off2 i 2#32) (k0_off2_inb i 1)))
    (k0_pay9 (slab x0 (k0_off3 i 2#32) (k0_off3_inb i 1)))
    (k0_pay10 (slab x0 (k0_off1 i 4#32) (k0_off1_inb i 2)))
    (slab x0 (k0_off2 i 4#32) (k0_off2_inb i 2))
    (slab x0 (k0_off3 i 4#32) (k0_off3_inb i 2))
    x1

/-- The statistics block of grid point `i`: per channel, the sum (row 0) and the sum of squares (row 1) of the
    512 × 256 product the convolution block is a reshaping of. -/
def statBlk (i : grid0.Coords) (x0 : Vec F S1x68x68x256 .f32) (x1 : Vec F S2304x256 .f32) : Vec F S1x1x2x256 .f32 :=
  k0_pay3
    (k0_pay4 (slab x0 (k0_off1 i 0#32) (k0_off1_inb i 0)))
    (k0_pay5 (slab x0 (k0_off2 i 0#32) (k0_off2_inb i 0)))
    (k0_pay6 (slab x0 (k0_off3 i 0#32) (k0_off3_inb i 0)))
    (k0_pay7 (slab x0 (k0_off1 i 2#32) (k0_off1_inb i 1)))
    (k0_pay8 (slab x0 (k0_off2 i 2#32) (k0_off2_inb i 1)))
    (k0_pay9 (slab x0 (k0_off3 i 2#32) (k0_off3_inb i 1)))
    (k0_pay10 (slab x0 (k0_off1 i 4#32) (k0_off1_inb i 2)))
    (slab x0 (k0_off2 i 4#32) (k0_off2_inb i 2))
    (slab x0 (k0_off3 i 4#32) (k0_off3_inb i 2))
    x1

theorem zero4 : (![0, 0, 0, 0] : Fin 4 → Nat) = fun _ => 0 := funext fun a => by fin_cases a <;> rfl
theorem zero2 : (![0, 0] : Fin 2 → Nat) = fun _ => 0 := funext fun a => by fin_cases a <;> rfl

/-- What the body leaves in the convolution window's staging buffer is the convolution block of its two input blocks:
    its one store covers the buffer, and the stored value is the product of the nine loaded slabs and the loaded weight. -/
theorem out_conv (c : Dev nD) (i : grid0.Coords) (arg2 : Memref sig .tc .vmem S1x68x68x256 .f32) (harg2 : arg2.IsWhole) (arg3 : Memref sig .tc .vmem S2304x256 .f32) (harg3 : arg3.IsWhole) (arg4 : Memref sig .tc .vmem S1x8x64x256 .f32) (harg4 : arg4.IsWhole) (arg5 : Memref sig .tc .vmem S1x1x2x256 .f32) (harg5 : arg5.IsWhole)
    (x0 : Vec F S1x68x68x256 .f32) (x1 : Vec F S2304x256 .f32) :
    out0_A_2 (F := F) c i arg2 harg2 arg3 harg3 arg4 harg4 arg5 harg5 x0 x1 = convBlk i x0 x1 := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero zero4]
  simp only [View.readAt_eq_ld, harg2.read_unread, harg3.read_unread, View.ld_unit_zero (S := S2304x256) zero2]
  rfl

/-- What the body leaves in the statistics window's staging buffer is the statistics block of its two input blocks. -/
theorem out_stat (c : Dev nD) (i : grid0.Coords) (arg2 : Memref sig .tc .vmem S1x68x68x256 .f32) (harg2 : arg2.IsWhole) (arg3 : Memref sig .tc .vmem S2304x256 .f32) (harg3 : arg3.IsWhole) (arg4 : Memref sig .tc .vmem S1x8x64x256 .f32) (harg4 : arg4.IsWhole) (arg5 : Memref sig .tc .vmem S1x1x2x256 .f32) (harg5 : arg5.IsWhole)
    (x0 : Vec F S1x68x68x256 .f32) (x1 : Vec F S2304x256 .f32) :
    out0_A_3 (F := F) c i arg2 harg2 arg3 harg3 arg4 harg4 arg5 harg5 x0 x1 = statBlk i x0 x1 := by
  unfold out0_A_3
  rw [View.read_writes_eq_canon _ _ _ (cover0_A_3 c i arg2 harg2 arg3 harg3 arg4 harg4 arg5 harg5 x0 x1)]
  unfold kernelRun0_A
  dsimp only
  sl_unfold_words
  rw [View.canon_unit_zero zero4]
  simp only [View.readAt_eq_ld, harg2.read_unread, harg3.read_unread, View.ld_unit_zero (S := S2304x256) zero2]
  rfl

/-! ## Where the grid points sit -/

/-- Point `t` of the 8 × 8 grid is `(t / 8, t % 8)` = (image, row block); the padded-image window's block index is
    `(t / 8, 0, 0, 0)`, the weight's `(0, 0)`, both outputs' `(t / 8, t % 8, 0, 0)`. -/
theorem point_facts : ∀ t : Fin cfg0.N,
    (grid0.coords t (0 : Fin 2)).val = t.val / 8 ∧ (grid0.coords t (1 : Fin 2)).val = t.val % 8
    ∧ win0_0.index t (0 : Fin 4) = t.val / 8 ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 8 ∧ win0_2.index t (1 : Fin 4) = t.val % 8
    ∧ win0_2.index t (2 : Fin 4) = 0 ∧ win0_2.index t (3 : Fin 4) = 0
    ∧ win0_3.index t (0 : Fin 4) = t.val / 8 ∧ win0_3.index t (1 : Fin 4) = t.val % 8
    ∧ win0_3.index t (2 : Fin 4) = 0 ∧ win0_3.index t (3 : Fin 4) = 0 :=
  (by decide +kernel : ∀ t : Fin grid0.N, _)

/-! ## From an array index to its grid point and its place in the block -/

/-- The grid point with coordinates `(n, h)`. -/
def gridPt (n h : Fin 8) : grid0.Coords := fun a => match a with | ⟨0, _⟩ => n | ⟨1, _⟩ => h

/-- Index `z` of padded image `n`, as an index of the array of all eight. -/
def inImage (n : Fin 8) (z : S1x68x68x256.Idx) : S8x68x68x256.Idx :=
  fun a => match a with | ⟨0, _⟩ => n | ⟨1, _⟩ => z 1 | ⟨2, _⟩ => z 2 | ⟨3, _⟩ => z 3

/-- Padded image `n` of the array of all eight. -/
def image (X : Vec F S8x68x68x256 .f32) (n : Fin 8) : Vec F S1x68x68x256 .f32 := fun z => X (inImage n z)

/-- Where index `j` of the convolution array sits inside its block of eight rows: row `j 1 % 8`. -/
def inRows (j : S8x64x64x256.Idx) : S1x8x64x256.Idx :=
  fun a => match a with
    | ⟨0, _⟩ => ⟨0, Nat.one_pos⟩
    | ⟨1, _⟩ => ⟨(j 1).val % 8, Nat.mod_lt _ (by decide)⟩
    | ⟨2, _⟩ => j 2
    | ⟨3, _⟩ => j 3

/-- Where index `j` of the statistics array sits inside its block: the kind (sum or sum of squares) and the channel. -/
def inStat (j : S8x8x2x256.Idx) : S1x1x2x256.Idx :=
  fun a => match a with
    | ⟨0, _⟩ => ⟨0, Nat.one_pos⟩
    | ⟨1, _⟩ => ⟨0, Nat.one_pos⟩
    | ⟨2, _⟩ => j 2
    | ⟨3, _⟩ => j 3

/-- Row `r < 64` lies in row block `r / 8 < 8`. -/
theorem rowBlock_lt (j : S8x64x64x256.Idx) : (j 1).val / 8 < 8 := by
  have h : (j 1).val < 64 := (j 1).isLt
  omega

end Reg0

open Reg0

/-! ## The two result arrays as functions of the padded images and the weight -/

/-- THE CONVOLUTION ARRAY: entry `(n, r, w, k)` is entry `(r % 8, w, k)` of the convolution block of the grid point
    `(n, r / 8)`, computed from padded image `n` and the weight. -/
def GC (X : Vec F S8x68x68x256 .f32) (Wt : Vec F S2304x256 .f32) : Vec F S8x64x64x256 .f32 :=
  fun j => convBlk (gridPt (j 0) ⟨(j 1).val / 8, rowBlock_lt j⟩) (image X (j 0)) Wt (inRows j)

/-- THE STATISTICS ARRAY: entry `(n, h, s, k)` is entry `(s, k)` of the statistics block of the grid point `(n, h)`,
    computed from padded image `n` and the weight. -/
def GS (X : Vec F S8x68x68x256 .f32) (Wt : Vec F S2304x256 .f32) : Vec F S8x8x2x256 .f32 :=
  fun j => statBlk (gridPt (j 0) (j 1)) (image X (j 0)) Wt (inStat j)

namespace Reg0

section Point

variable (V : (c : Dev nD) → (b : Ref sig .tc) → Buf (Elt F) ((c : Thread nD τ).loc b))

/-! ## One grid point: its input blocks, and what it writes back -/

/-- The padded-image window's block at point `t` is padded image `t / 8`. -/
theorem image_block (c : Dev nD) (t : Fin cfg0.N) (n : Fin 8) (hn : n.val = t.val / 8) :
    (iblk0 V c 0 t : Vec F S1x68x68x256 .f32) = image (V c main_v1) n := by
  obtain ⟨-, -, e0, e1, e2, e3, -⟩ := point_facts t
  funext z
  show V c main_v1 (((cfg0.win 0).blk t).view.emb z) = V c main_v1 (inImage n z)
  refine congrArg _ ?_
  funext a; apply Fin.ext
  match a with
  | ⟨0, _⟩ => show win0_0.index t (0 : Fin 4) * 1 + 1 * (z 0).val = n.val; have hz : (z 0).val < 1 := (z 0).isLt; omega
  | ⟨1, _⟩ => show win0_0.index t (1 : Fin 4) * 68 + 1 * (z 1).val = (z 1).val; omega
  | ⟨2, _⟩ => show win0_0.index t (2 : Fin 4) * 68 + 1 * (z 2).val = (z 2).val; omega
  | ⟨3, _⟩ => show win0_0.index t (3 : Fin 4) * 256 + 1 * (z 3).val = (z 3).val; omega

/-- The weight window's block at every point is the whole weight. -/
theorem weight_block (c : Dev nD) (t : Fin cfg0.N) : (iblk0 V c 1 t : Vec F S2304x256 .f32) = V c main_v4 := by
  obtain ⟨-, -, -, -, -, -, e0, e1, -⟩ := point_facts t
  funext z
  show V c main_v4 (((cfg0.win 1).blk t).view.emb z) = V c main_v4 z
  refine congrArg _ ?_
  funext a; apply Fin.ext
  match a with
  | ⟨0, _⟩ => show win0_1.index t (0 : Fin 2) * 2304 + 1 * (z 0).val = (z 0).val; omega
  | ⟨1, _⟩ => show win0_1.index t (1 : Fin 2) * 256 + 1 * (z 1).val = (z 1).val; omega

/-- Block `t` of any contents `G` of the convolution array: `G` at the array index each block index sits at. -/
theorem read_conv_block (G : Vec F S8x64x64x256 .f32) (t : Fin cfg0.N) :
    ((cfg0.win 2).blk t).view.read (Elt F) G = fun y => G (((cfg0.win 2).blk t).view.emb y) := rfl

/-- Block `t` of any contents `G` of the statistics array: `G` at the array index each block index sits at. -/
theorem read_stat_block (G : Vec F S8x8x2x256 .f32) (t : Fin cfg0.N) :
    ((cfg0.win 3).blk t).view.read (Elt F) G = fun y => G (((cfg0.win 3).blk t).view.emb y) := rfl

/-- The convolution window's blocks lie inside the array, so a write-back moves the whole staging buffer. -/
theorem cut_conv (X : Vec F S1x8x64x256 .f32) (t : Fin cfg0.N) : (cfg0.win 2).cut (grid0.coords t) X = X := rfl

/-- The statistics window's blocks lie inside the array, so a write-back moves the whole staging buffer. -/
theorem cut_stat (X : Vec F S1x1x2x256 .f32) (t : Fin cfg0.N) : (cfg0.win 3).cut (grid0.coords t) X = X := rfl

/-- The convolution block of point `i` at block index `y` is `GC` at the array index `j` that `y` sits at in block `i`. -/
theorem convBlk_eq_GC (X : Vec F S8x68x68x256 .f32) (Wt : Vec F S2304x256 .f32) (i : grid0.Coords)
    (x0 : Vec F S1x68x68x256 .f32) (x1 : Vec F S2304x256 .f32) (j : S8x64x64x256.Idx) (y : S1x8x64x256.Idx)
    (hx0 : x0 = image X (j 0)) (hx1 : x1 = Wt)
    (hi0 : (i (0 : Fin 2)).val = (j 0).val) (hi1 : (i (1 : Fin 2)).val = (j 1).val / 8)
    (hy1 : (y 1).val = (j 1).val % 8) (hy2 : (y 2).val = (j 2).val) (hy3 : (y 3).val = (j 3).val) :
    convBlk i x0 x1 y = GC X Wt j := by
  subst hx0 hx1
  have ei : i = gridPt (j 0) ⟨(j 1).val / 8, rowBlock_lt j⟩ := by
    funext a; apply Fin.ext
    match a with
    | ⟨0, _⟩ => exact hi0
    | ⟨1, _⟩ => exact hi1
  have ey : y = inRows j := by
    funext a; apply Fin.ext
    match a with
    | ⟨0, _⟩ => show (y 0).val = 0; have h : (y 0).val < 1 := (y 0).isLt; omega
    | ⟨1, _⟩ => exact hy1
    | ⟨2, _⟩ => exact hy2
    | ⟨3, _⟩ => exact hy3
  subst ei ey
  rfl

/-- The statistics block of point `i` at block index `y` is `GS` at the array index `j` that `y` sits at in block `i`. -/
theorem statBlk_eq_GS (X : Vec F S8x68x68x256 .f32) (Wt : Vec F S2304x256 .f32) (i : grid0.Coords)
    (x0 : Vec F S1x68x68x256 .f32) (x1 : Vec F S2304x256 .f32) (j : S8x8x2x256.Idx) (y : S1x1x2x256.Idx)
    (hx0 : x0 = image X (j 0)) (hx1 : x1 = Wt)
    (hi0 : (i (0 : Fin 2)).val = (j 0).val) (hi1 : (i (1 : Fin 2)).val = (j 1).val)
    (hy2 : (y 2).val = (j 2).val) (hy3 : (y 3).val = (j 3).val) :
    statBlk i x0 x1 y = GS X Wt j := by
  subst hx0 hx1
  have ei : i = gridPt (j 0) (j 1) := by
    funext a; apply Fin.ext
    match a with
    | ⟨0, _⟩ => exact hi0
    | ⟨1, _⟩ => exact hi1
  have ey : y = inStat j := by
    funext a; apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => exact hy2
    | ⟨3, _⟩ => exact hy3
  subst ei ey
  rfl

/-- WHAT POINT `t` WRITES BACK to the convolution array is block `t` of `GC` of the padded images and the weight: block
    index `y` sits at array index `(t / 8, 8 (t % 8) + y 1, y 2, y 3)`. -/
theorem flushed_conv (c : Dev nD) (t : Fin cfg0.N) :
    (dat0 V c).flushed 2 t = ((cfg0.win 2).blk t).view.read (Elt F) (GC (V c main_v1) (V c main_v4)) := by
  show (cfg0.win 2).cut (grid0.coords t) ((dat0 V c).after 2 t) = _
  rw [after0_2]
  unfold outsAt0
  dsimp only
  rw [out_conv c (grid0.coords t) (ms0_0 t) (hs0_0 t) (ms0_1 t) (hs0_1 t) (ms0_2 t) (hs0_2 t) (ms0_3 t) (hs0_3 t) (iblk0 V c 0 t) (iblk0 V c 1 t),
    cut_conv, read_conv_block]
  obtain ⟨p0, p1, -, -, -, -, -, -, e0, e1, e2, e3, -⟩ := point_facts t
  funext y
  have hy0 : (y 0).val < 1 := (y 0).isLt
  have hy1 : (y 1).val < 8 := (y 1).isLt
  have j0 : ((((cfg0.win 2).blk t).view.emb y) 0).val = t.val / 8 := by
    show win0_2.index t (0 : Fin 4) * 1 + 1 * (y 0).val = _; omega
  have j1 : ((((cfg0.win 2).blk t).view.emb y) 1).val = t.val % 8 * 8 + (y 1).val := by
    show win0_2.index t (1 : Fin 4) * 8 + 1 * (y 1).val = _; omega
  have j2 : ((((cfg0.win 2).blk t).view.emb y) 2).val = (y 2).val := by
    show win0_2.index t (2 : Fin 4) * 64 + 1 * (y 2).val = _; omega
  have j3 : ((((cfg0.win 2).blk t).view.emb y) 3).val = (y 3).val := by
    show win0_2.index t (3 : Fin 4) * 256 + 1 * (y 3).val = _; omega
  exact convBlk_eq_GC (V c main_v1) (V c main_v4) (grid0.coords t) (iblk0 V c 0 t) (iblk0 V c 1 t)
    (((cfg0.win 2).blk t).view.emb y) y
    (image_block V c t _ j0) (weight_block V c t)
    (by rw [j0]; exact p0) (by rw [j1]; omega) (by rw [j1]; omega) j2.symm j3.symm

/-- WHAT POINT `t` WRITES BACK to the statistics array is block `t` of `GS` of the padded images and the weight: block
    index `y` sits at array index `(t / 8, t % 8, y 2, y 3)`. -/
theorem flushed_stat (c : Dev nD) (t : Fin cfg0.N) :
    (dat0 V c).flushed 3 t = ((cfg0.win 3).blk t).view.read (Elt F) (GS (V c main_v1) (V c main_v4)) := by
  show (cfg0.win 3).cut (grid0.coords t) ((dat0 V c).after 3 t) = _
  rw [after0_3]
  unfold outsAt0
  dsimp only
  rw [out_stat c (grid0.coords t) (ms0_0 t) (hs0_0 t) (ms0_1 t) (hs0_1 t) (ms0_2 t) (hs0_2 t) (ms0_3 t) (hs0_3 t) (iblk0 V c 0 t) (iblk0 V c 1 t),
    cut_stat, read_stat_block]
  obtain ⟨p0, p1, -, -, -, -, -, -, -, -, -, -, e0, e1, e2, e3⟩ := point_facts t
  funext y
  have hy0 : (y 0).val < 1 := (y 0).isLt
  have hy1 : (y 1).val < 1 := (y 1).isLt
  have j0 : ((((cfg0.win 3).blk t).view.emb y) 0).val = t.val / 8 := by
    show win0_3.index t (0 : Fin 4) * 1 + 1 * (y 0).val = _; omega
  have j1 : ((((cfg0.win 3).blk t).view.emb y) 1).val = t.val % 8 := by
    show win0_3.index t (1 : Fin 4) * 1 + 1 * (y 1).val = _; omega
  have j2 : ((((cfg0.win 3).blk t).view.emb y) 2).val = (y 2).val := by
    show win0_3.index t (2 : Fin 4) * 2 + 1 * (y 2).val = _; omega
  have j3 : ((((cfg0.win 3).blk t).view.emb y) 3).val = (y 3).val := by
    show win0_3.index t (3 : Fin 4) * 256 + 1 * (y 3).val = _; omega
  exact statBlk_eq_GS (V c main_v1) (V c main_v4) (grid0.coords t) (iblk0 V c 0 t) (iblk0 V c 1 t)
    (((cfg0.win 3).blk t).view.emb y) y
    (image_block V c t _ j0) (weight_block V c t)
    (by rw [j0]; exact p0) (by rw [j1]; exact p1) j2.symm j3.symm

end Point

/-! ## The blocks tile the arrays -/

/-- An index of the convolution array is in point `t`'s block iff each coordinate is in the block's range on its axis. -/
theorem mem_conv_block (t : Fin cfg0.N) (j : S8x64x64x256.Idx) :
    j ∈ ((cfg0.win 2).blk t).view.set ↔ ∀ a : Fin 4, win0_2.index t a * S1x8x64x256.size a ≤ (j a).val ∧ (j a).val < win0_2.index t a * S1x8x64x256.size a + S1x8x64x256.size a := by
  show j ∈ ((View.whole main_v5_0).slice (win0_2.rect t)).set ↔ _
  rw [View.set_slice_whole, Rect.mem_set_unit]
  exact Iff.rfl

/-- An index of the statistics array is in point `t`'s block iff each coordinate is in the block's range on its axis. -/
theorem mem_stat_block (t : Fin cfg0.N) (j : S8x8x2x256.Idx) :
    j ∈ ((cfg0.win 3).blk t).view.set ↔ ∀ a : Fin 4, win0_3.index t a * S1x1x2x256.size a ≤ (j a).val ∧ (j a).val < win0_3.index t a * S1x1x2x256.size a + S1x1x2x256.size a := by
  show j ∈ ((View.whole main_v5_1).slice (win0_3.rect t)).set ↔ _
  rw [View.set_slice_whole, Rect.mem_set_unit]
  exact Iff.rfl

/-- Row `r` of image `n` of the convolution array is under the block of point `8n + r / 8`. -/
theorem cover_conv (j : S8x64x64x256.Idx) :
    ∃ t : Fin cfg0.N, (cfg0.win 2).flush t = true ∧ j ∈ ((cfg0.win 2).blk t).view.set := by
  have h0 : (j 0).val < 8 := (j 0).isLt
  have h1 : (j 1).val < 64 := (j 1).isLt
  have h2 : (j 2).val < 64 := (j 2).isLt
  have h3 : (j 3).val < 256 := (j 3).isLt
  have hN : cfg0.N = 64 := N_0
  obtain ⟨t, ht⟩ : ∃ t : Fin cfg0.N, t.val = (j 0).val * 8 + (j 1).val / 8 :=
    ⟨⟨(j 0).val * 8 + (j 1).val / 8, by rw [hN]; omega⟩, rfl⟩
  obtain ⟨-, -, -, -, -, -, -, -, e0, e1, e2, e3, -⟩ := point_facts t
  refine ⟨t, flush0_2 t, ?_⟩
  rw [mem_conv_block]
  intro a
  match a with
  | ⟨0, _⟩ => show win0_2.index t (0 : Fin 4) * 1 ≤ (j 0).val ∧ (j 0).val < win0_2.index t (0 : Fin 4) * 1 + 1; omega
  | ⟨1, _⟩ => show win0_2.index t (1 : Fin 4) * 8 ≤ (j 1).val ∧ (j 1).val < win0_2.index t (1 : Fin 4) * 8 + 8; omega
  | ⟨2, _⟩ => show win0_2.index t (2 : Fin 4) * 64 ≤ (j 2).val ∧ (j 2).val < win0_2.index t (2 : Fin 4) * 64 + 64; omega
  | ⟨3, _⟩ => show win0_2.index t (3 : Fin 4) * 256 ≤ (j 3).val ∧ (j 3).val < win0_2.index t (3 : Fin 4) * 256 + 256; omega

/-- Entry `(n, h, ·, ·)` of the statistics array is under the block of point `8n + h`. -/
theorem cover_stat (j : S8x8x2x256.Idx) :
    ∃ t : Fin cfg0.N, (cfg0.win 3).flush t = true ∧ j ∈ ((cfg0.win 3).blk t).view.set := by
  have h0 : (j 0).val < 8 := (j 0).isLt
  have h1 : (j 1).val < 8 := (j 1).isLt
  have h2 : (j 2).val < 2 := (j 2).isLt
  have h3 : (j 3).val < 256 := (j 3).isLt
  have hN : cfg0.N = 64 := N_0
  obtain ⟨t, ht⟩ : ∃ t : Fin cfg0.N, t.val = (j 0).val * 8 + (j 1).val :=
    ⟨⟨(j 0).val * 8 + (j 1).val, by rw [hN]; omega⟩, rfl⟩
  obtain ⟨-, -, -, -, -, -, -, -, -, -, -, -, e0, e1, e2, e3⟩ := point_facts t
  refine ⟨t, flush0_3 t, ?_⟩
  rw [mem_stat_block]
  intro a
  match a with
  | ⟨0, _⟩ => show win0_3.index t (0 : Fin 4) * 1 ≤ (j 0).val ∧ (j 0).val < win0_3.index t (0 : Fin 4) * 1 + 1; omega
  | ⟨1, _⟩ => show win0_3.index t (1 : Fin 4) * 1 ≤ (j 1).val ∧ (j 1).val < win0_3.index t (1 : Fin 4) * 1 + 1; omega
  | ⟨2, _⟩ => show win0_3.index t (2 : Fin 4) * 2 ≤ (j 2).val ∧ (j 2).val < win0_3.index t (2 : Fin 4) * 2 + 2; omega
  | ⟨3, _⟩ => show win0_3.index t (3 : Fin 4) * 256 ≤ (j 3).val ∧ (j 3).val < win0_3.index t (3 : Fin 4) * 256 + 256; omega

end Reg0

/-! ## The arrays after the region -/

/-- The convolution array after the region is `GC` of the padded images and the weight as the region finds them. -/
theorem final0_2 (V : (c : Dev nD) → (b : Ref sig .tc) → Buf (Elt F) ((c : Thread nD τ).loc b)) (c : Dev nD) :
    (dat0 (F := F) V c).arrAt 2 cfg0.N = GC (V c main_v1) (V c main_v4) :=
  (dat0 V c).arrAt_eq_of_cover 2 _ (fun t _ => flushed_conv V c t) cover_conv

/-- The statistics array after the region is `GS` of the padded images and the weight as the region finds them. -/
theorem final0_3 (V : (c : Dev nD) → (b : Ref sig .tc) → Buf (Elt F) ((c : Thread nD τ).loc b)) (c : Dev nD) :
    (dat0 (F := F) V c).arrAt 3 cfg0.N = GS (V c main_v1) (V c main_v4) :=
  (dat0 V c).arrAt_eq_of_cover 3 _ (fun t _ => flushed_stat V c t) cover_stat

end Cert.ReferenceIdeal.Val

end
-- ==== Proof.RReg1.lean ====
/- Region 1 of the reference's program, read as a function of its input arrays.
   The region walks an 8 × 8 grid. At point (n, h) it takes rows 8h … 8h+7 of image n of the convolution array
   A : [8, 64, 64, 256] (a block [1, 8, 64, 256]), the whole scale row s : [1, 256] and the whole shift row b : [1, 256],
   and writes the block of the same place of the result array. Entry by entry the block written is
   max (A · s[channel] + b[channel], 0), all in f32. The 64 blocks tile the result array, so after the region it
   holds GB A s b, the same formula at every index (n, r, w, ch). -/
import proofs.«155494_g2000402634760427_pallasbulk_1319_1_alg».proof.Proof.Gen.ReferenceIdeal.Frame
import Idealize.ShloMosaic.Lib.Pipeline.Value
import Idealize.ShloMosaic.Lib.ValueIdx
import Idealize.ShloMosaic.Lib.ValueLayout

set_option maxRecDepth 16384

noncomputable section

namespace Cert.ReferenceIdeal.Val

open Idealize.ShloMosaic Idealize.ShloMosaic.TcCoe Idealize.SL.Sem
open Idealize.ShloMosaic.Pipeline (Dat Cfg Window)
open Idealize.ShloMosaic.ValueIdx
open Cert.ReferenceIdeal Cert.ReferenceIdeal.Gen

variable {F : FTy → Type} [FloatOps F]

/-- Scale, shift, clamp at zero, entry by entry: the entry at (n, h, w, ch) of the result is
    max (A (n, h, w, ch) · s (0, ch) + b (0, ch), 0). -/
def GB (A : Vec F S8x64x64x256 .f32) (s : Vec F S1x256 .f32) (b : Vec F S1x256 .f32) : Vec F S8x64x64x256 .f32 := fun j =>
  FloatOps.maximumf
    (FloatOps.addf (FloatOps.mulf (A j) (s (ix2 (0 : Fin 1) (j 3)))) (b (ix2 (0 : Fin 1) (j 3))))
    (Scalar.ofBits .f32 0x00000000#32)

namespace Reg1

/-- A row [1, 1, c] broadcast to [a, b, c] reads, at (p, q, ch), the row's entry at ch. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (p : Fin a) (q : Fin b) (ch : Fin c) :
    broadcastTo ⟨3, ![a, b, c]⟩ v h (ix3 p q ch) = v (ix3 (0 : Fin 1) (0 : Fin 1) ch) := by
  refine broadcastTo_apply v h (ix3 p q ch) (ix3 (0 : Fin 1) (0 : Fin 1) ch) fun ax => ?_
  match ax with
  | ⟨0, _⟩ => rfl
  | ⟨1, _⟩ => rfl
  | ⟨2, _⟩ =>
    show ch.val = if c = 1 then 0 else ch.val
    split
    · have := ch.isLt; omega
    · rfl

/-- The body's stored block, entry by entry: at (0, h, w, ch) it is the loaded block's entry times the scale row's
    entry at ch plus the shift row's entry at ch, clamped below at zero. -/
theorem pay_apply (v0 : Vec F S1x8x64x256 .f32) (v2 v7 : Vec F S1x256 .f32) (u : Fin 1) (h : Fin 8) (w : Fin 64) (ch : Fin 256) :
    k1_pay1 v0 v2 v7 (ix4 u h w ch) =
      FloatOps.maximumf
        (FloatOps.addf (FloatOps.mulf (v0 (ix4 (0 : Fin 1) h w ch)) (v2 (ix2 (0 : Fin 1) ch))) (v7 (ix2 (0 : Fin 1) ch)))
        (Scalar.ofBits .f32 0x00000000#32) := by
  unfold k1_pay1
  refine (shapeCast_abc_1abc_apply _ _ u h w ch).trans ?_
  show FloatOps.maximumf (FloatOps.addf (FloatOps.mulf (shapeCast S8x64x256 v0 shapeCasts_S1x8x64x256_S8x64x256 (ix3 h w ch))
      (broadcastTo S8x64x256 (shapeCast S1x1x256 (shapeCast S1x256 v2 shapeCasts_S1x256_S1x256) shapeCasts_S1x256_S1x1x256) broadcasts_S1x1x256_S8x64x256 (ix3 h w ch)))
      (broadcastTo S8x64x256 (shapeCast S1x1x256 (shapeCast S1x256 v7 shapeCasts_S1x256_S1x256) shapeCasts_S1x256_S1x1x256) broadcasts_S1x1x256_S8x64x256 (ix3 h w ch)))
      (Scalar.ofBits .f32 0x00000000#32) = _
  rw [shapeCast_1abc_abc_apply, broadcastTo_11c_abc_apply, broadcastTo_11c_abc_apply, shapeCast_ab_1ab_apply, shapeCast_ab_1ab_apply,
    shapeCast_self, shapeCast_self]

/-- The stored block at a block index y is the result's entry at an array index i, when the three loaded blocks
    read, at y and at y's channel, what the arrays hold at i and at i's channel. -/
theorem pay_eq_GB (A : Vec F S8x64x64x256 .f32) (s b : Vec F S1x256 .f32)
    (x0 : Vec F S1x8x64x256 .f32) (x1 x2 : Vec F S1x256 .f32) (y : S1x8x64x256.Idx) (i : S8x64x64x256.Idx)
    (h0 : x0 y = A i)
    (h1 : x1 (ix2 (0 : Fin 1) (y 3)) = s (ix2 (0 : Fin 1) (i 3)))
    (h2 : x2 (ix2 (0 : Fin 1) (y 3)) = b (ix2 (0 : Fin 1) (i 3))) :
    k1_pay1 x0 x1 x2 y = GB A s b i := by
  obtain ⟨u, h, w, ch, rfl⟩ : ∃ (u : Fin 1) (h : Fin 8) (w : Fin 64) (ch : Fin 256), y = ix4 u h w ch :=
    ⟨y 0, y 1, y 2, y 3, eq_ix4 y⟩
  have hu : u = 0 := Fin.ext (by have := u.isLt; show u.val = 0; omega)
  subst hu
  rw [pay_apply]
  unfold GB
  rw [← h0]
  show _ = FloatOps.maximumf (FloatOps.addf (FloatOps.mulf _ (s (ix2 (0 : Fin 1) (i 3)))) (b (ix2 (0 : Fin 1) (i 3)))) _
  rw [← h1, ← h2]

/-! ## From the blocks to the array -/

theorem zero_off4 : (![0, 0, 0, 0] : Fin 4 → Nat) = fun _ => 0 := funext fun a => by fin_cases a <;> rfl
theorem zero_off2 : (![0, 0] : Fin 2 → Nat) = fun _ => 0 := funext fun a => by fin_cases a <;> rfl

/-- The windows' index maps over the 8 × 8 grid: at every point the convolution's block and the result's block sit at
    the same block index, (n, h, 0, 0), and the scale and shift rows are block (0, 0) of their arrays. -/
theorem block_index_facts : ∀ t : Fin cfg1.N,
    win1_0.index t (0 : Fin 4) = win1_3.index t (0 : Fin 4)
    ∧ win1_0.index t (1 : Fin 4) = win1_3.index t (1 : Fin 4)
    ∧ win1_0.index t (2 : Fin 4) = 0 ∧ win1_0.index t (3 : Fin 4) = 0
    ∧ win1_3.index t (2 : Fin 4) = 0 ∧ win1_3.index t (3 : Fin 4) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block index (n, h, 0, 0) with n, h < 8 is some grid point's. -/
theorem block_index_onto : ∀ (q0 : Fin 8) (q1 : Fin 8), ∃ t : Fin cfg1.N, win1_3.index t = ![q0.val, q1.val, 0, 0] :=
  (by decide +kernel : ∀ (q0 : Fin 8) (q1 : Fin 8), ∃ t : Fin grid1.N, win1_3.index t = ![q0.val, q1.val, 0, 0])

/-- What point t writes back is block t of GB of the three arrays as the region finds them. -/
theorem flushed1_3_eq (V : (c : Dev nD) → (b : Ref sig .tc) → Buf (Elt F) ((c : Thread nD τ).loc b)) (c : Dev nD) (t : Fin cfg1.N) :
    (dat1 (F := F) V c).flushed 3 t
      = ((cfg1.win 3).blk t).view.read (Elt F) (GB (V c main_v5_0) (V c main_v25) (V c main_v29)) := by
  show (cfg1.win 3).cut (grid1.coords t) ((dat1 V c).after 3 t) = _
  rw [after1_3]
  unfold out1_3
  rw [View.canon_unit_zero zero_off4]
  simp only [View.ld_unit_zero (S := S1x8x64x256) zero_off4, View.ld_unit_zero (S := S1x256) zero_off2]
  obtain ⟨e0, e1, e2, e3, e4, e5, e6, e7, e8, e9⟩ := block_index_facts t
  funext y
  refine pay_eq_GB (V c main_v5_0) (V c main_v25) (V c main_v29) (iblk1 V c 0 t) (iblk1 V c 1 t) (iblk1 V c 2 t) y
    (((cfg1.win 3).blk t).view.emb y) ?_ ?_ ?_
  · show V c main_v5_0 (((cfg1.win 0).blk t).view.emb y) = V c main_v5_0 (((cfg1.win 3).blk t).view.emb y)
    refine congrArg _ (funext fun a => Fin.ext ?_)
    match a with
    | ⟨0, _⟩ => show win1_0.index t (0 : Fin 4) * 1 + 1 * (y 0).val = win1_3.index t (0 : Fin 4) * 1 + 1 * (y 0).val; omega
    | ⟨1, _⟩ => show win1_0.index t (1 : Fin 4) * 8 + 1 * (y 1).val = win1_3.index t (1 : Fin 4) * 8 + 1 * (y 1).val; omega
    | ⟨2, _⟩ => show win1_0.index t (2 : Fin 4) * 64 + 1 * (y 2).val = win1_3.index t (2 : Fin 4) * 64 + 1 * (y 2).val; omega
    | ⟨3, _⟩ => show win1_0.index t (3 : Fin 4) * 256 + 1 * (y 3).val = win1_3.index t (3 : Fin 4) * 256 + 1 * (y 3).val; omega
  · show V c main_v25 (((cfg1.win 1).blk t).view.emb (ix2 (0 : Fin 1) (y 3))) = V c main_v25 (ix2 (0 : Fin 1) (((cfg1.win 3).blk t).view.emb y 3))
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * (y 3).val = win1_3.index t (3 : Fin 4) * 256 + 1 * (y 3).val; omega
  · show V c main_v29 (((cfg1.win 2).blk t).view.emb (ix2 (0 : Fin 1) (y 3))) = V c main_v29 (ix2 (0 : Fin 1) (((cfg1.win 3).blk t).view.emb y 3))
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * (y 3).val = win1_3.index t (3 : Fin 4) * 256 + 1 * (y 3).val; omega

/-- An index of the result array is in point t's block iff each coordinate is in the block's range on its axis. -/
theorem mem_block1_3 (t : Fin cfg1.N) (i : S8x64x64x256.Idx) :
    i ∈ ((cfg1.win 3).blk t).view.set ↔ ∀ a : Fin 4, win1_3.index t a * S1x8x64x256.size a ≤ (i a).val ∧ (i a).val < win1_3.index t a * S1x8x64x256.size a + S1x8x64x256.size a := by
  show i ∈ ((View.whole main_v30).slice (win1_3.rect t)).set ↔ _
  rw [View.set_slice_whole, Rect.mem_set_unit]
  exact Iff.rfl

/-- Every index (n, r, w, ch) of the result array is in the block of the point with block index (n, r / 8, 0, 0). -/
theorem cover1_3_all (i : S8x64x64x256.Idx) :
    ∃ t : Fin cfg1.N, (cfg1.win 3).flush t = true ∧ i ∈ ((cfg1.win 3).blk t).view.set := by
  have hi0 : (i 0).val < 8 := (i 0).isLt
  have hi1 : (i 1).val < 64 := (i 1).isLt
  have hi2 : (i 2).val < 64 := (i 2).isLt
  have hi3 : (i 3).val < 256 := (i 3).isLt
  obtain ⟨t, ht⟩ := block_index_onto ⟨(i 0).val, hi0⟩ ⟨(i 1).val / 8, by omega⟩
  have q0 : win1_3.index t (0 : Fin 4) = (i 0).val := congrFun ht 0
  have q1 : win1_3.index t (1 : Fin 4) = (i 1).val / 8 := congrFun ht 1
  have q2 : win1_3.index t (2 : Fin 4) = 0 := congrFun ht 2
  have q3 : win1_3.index t (3 : Fin 4) = 0 := congrFun ht 3
  refine ⟨t, flush1_3 t, ?_⟩
  rw [mem_block1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 8 ≤ (i 1).val ∧ (i 1).val < win1_3.index t (1 : Fin 4) * 8 + 8; omega
  | ⟨2, _⟩ => show win1_3.index t (2 : Fin 4) * 64 ≤ (i 2).val ∧ (i 2).val < win1_3.index t (2 : Fin 4) * 64 + 64; omega
  | ⟨3, _⟩ => show win1_3.index t (3 : Fin 4) * 256 ≤ (i 3).val ∧ (i 3).val < win1_3.index t (3 : Fin 4) * 256 + 256; omega

end Reg1

/-- The result array after the region: GB of the convolution, scale and shift arrays as the region finds them. -/
theorem final1_3 (V : (c : Dev nD) → (b : Ref sig .tc) → Buf (Elt F) ((c : Thread nD τ).loc b)) (c : Dev nD) :
    (dat1 (F := F) V c).arrAt 3 cfg1.N = GB (V c main_v5_0) (V c main_v25) (V c main_v29) :=
  (dat1 V c).arrAt_eq_of_cover 3 _ (fun t _ => Reg1.flushed1_3_eq V c t) Reg1.cover1_3_all

end Cert.ReferenceIdeal.Val

end
-- ==== Proof.RHost.lean ====
import proofs.«155494_g2000402634760427_pallasbulk_1319_1_alg».proof.Proof.Gen.ReferenceIdeal.Frame
import Idealize.ShloMosaic.Lib.StableHlo.Run

set_option maxRecDepth 16384

noncomputable section

namespace Cert.ReferenceIdeal.Val

open Idealize.ShloMosaic Idealize.ShloMosaic.TcCoe Idealize.SL.Sem
open Idealize.ShloMosaic.Pipeline (Dat Cfg Window)
open Cert.ReferenceIdeal Cert.ReferenceIdeal.Gen

variable {F : FTy → Type} [FloatOps F]

/-! # The host stretches of the reference's @main read as functions

Each definition is the tree of operations one stretch of host operations computes, from the
buffers it reads to the buffer it leaves; nothing is evaluated. Every buffer here is f32. -/

/-- The padding value every called pad function uses: the integer literal 0 converted to f32. -/
def hostZero : Vec F S_ .f32 := sitofp .f32 (constantI S_ 32 0#32)

/-- The image as region 0 reads it: NCHW to NHWC (entry (n, h, w, ch) reads x (n, ch, h, w)), then
    two zeros before and after each of the two spatial axes (64 becomes 68). -/
def pre0 (x : Vec F S8x256x64x64 .f32) : Vec F S8x68x68x256 .f32 :=
  pad S8x68x68x256 ![0, 2, 2, 0] ![0, 2, 2, 0] ![0, 0, 0, 0]
    (transpose S8x64x64x256 [0, 2, 3, 1] x transposes_S8x256x64x64_S8x64x64x256_0_2_3_1)
    hostZero pads_S8x64x64x256_S8x68x68x256_000_220_220_000 h_S_

/-- The weight as region 0 reads it: (o, i, kh, kw) to (kh, kw, i, o), a pad of width zero on every
    axis, then the first three axes flattened row-major (3 * 3 * 256 = 2304 rows). -/
def pre1 (w : Vec F S256x256x3x3 .f32) : Vec F S2304x256 .f32 :=
  shapeCast S2304x256
    (pad S3x3x256x256 ![0, 0, 0, 0] ![0, 0, 0, 0] ![0, 0, 0, 0]
      (transpose S3x3x256x256 [2, 3, 1, 0] w transposes_S256x256x3x3_S3x3x256x256_2_3_1_0)
      hostZero pads_S3x3x256x256_S3x3x256x256_000_000_000_000 h_S_)
    shapeCasts_S3x3x256x256_S2304x256

/-- The partial statistics summed over the batch axis and the row-block axis:
    row 0 is the per-channel sum, row 1 the per-channel sum of squares. -/
def hostSums (st : Vec F S8x8x2x256 .f32) : Vec F S2x256 .f32 :=
  Host.reduceAdd st (constant S_ .f32 0x00000000#32) reducesTo_S8x8x2x256_S2x256_d0_1 h_S_

/-- The number of entries per channel, 8 * 64 * 64 = 32768, on every channel. -/
def hostCount : Vec F S256 .f32 :=
  broadcastInDim S256 ![] bcast_S_S256 (constant S_ .f32 0x47000000#32)

/-- The per-channel mean: row 0 of the sums over the count. -/
def hostMean (st : Vec F S8x8x2x256 .f32) : Vec F S256 .f32 :=
  Host.divf
    (shapeCast S256 (extractStridedSlice S1x256 ![0, 0] (hostSums st) slices_S2x256_S1x256_0_0) shapeCasts_S1x256_S256)
    hostCount

/-- The per-channel mean of squares: row 1 of the sums over the count. -/
def hostMeanSq (st : Vec F S8x8x2x256 .f32) : Vec F S256 .f32 :=
  Host.divf
    (shapeCast S256 (extractStridedSlice S1x256 ![1, 0] (hostSums st) slices_S2x256_S1x256_1_0) shapeCasts_S1x256_S256)
    hostCount

/-- One over the standard deviation: rsqrt (max (E[x²] - E[x]², 0) + ε), ε the literal 0x3727C5AC. -/
def hostInvStd (st : Vec F S8x8x2x256 .f32) : Vec F S256 .f32 :=
  Host.rsqrt
    (addf
      (maximumf
        (subf (hostMeanSq st) (mulf (hostMean st) (hostMean st)))
        (broadcastInDim S256 ![] bcast_S_S256 (constant S_ .f32 0x00000000#32)))
      (broadcastInDim S256 ![] bcast_S_S256 (constant S_ .f32 0x3727C5AC#32)))

/-- A per-channel parameter through the called pad function of width zero. -/
def hostPad1 (g : Vec F S256 .f32) : Vec F S256 .f32 :=
  pad S256 ![0] ![0] ![0] g hostZero pads_S256_S256_000 h_S_

/-- The scale of region 1: γ / σ, as one row. -/
def scaleOf (st : Vec F S8x8x2x256 .f32) (g : Vec F S256 .f32) : Vec F S1x256 .f32 :=
  shapeCast S1x256 (mulf (hostPad1 g) (hostInvStd st)) shapeCasts_S256_S1x256

/-- The shift of region 1: β - μ γ / σ, as one row. -/
def shiftOf (st : Vec F S8x8x2x256 .f32) (g : Vec F S256 .f32) (b : Vec F S256 .f32) : Vec F S1x256 .f32 :=
  shapeCast S1x256
    (subf (hostPad1 b) (mulf (mulf (hostMean st) (hostPad1 g)) (hostInvStd st)))
    shapeCasts_S256_S1x256

/-- The result: NHWC back to NCHW (entry (n, ch, h, w) reads o (n, h, w, ch)). -/
def tailT (o : Vec F S8x64x64x256 .f32) : Vec F S8x256x64x64 .f32 :=
  transpose S8x256x64x64 [0, 3, 1, 2] o transposes_S8x64x64x256_S8x256x64x64_0_3_1_2

variable (m : (ℓ : Loc nD τ sig) → Buf (Elt F) ℓ) (ρ : Dev nD → PrngReg)

/-! ## Before region 0 -/

/-- The padded image at region 0's entry is `pre0` of the launch's first argument. -/
theorem W5_x (c : Dev nD) : W5 m ρ c (Proc.devRef .tc main_v1) = pre0 (m ((c : Thread nD τ).loc main_arg0)) := by
  dsimp only [W5, W4, W3, W2, W1, hostOps0, hostOps0_1, hostOps0_2, hostOps0_3, hostOps0_4]
  after_results
  rfl

/-- The weight matrix at region 0's entry is `pre1` of the launch's second argument. -/
theorem W5_w (c : Dev nD) : W5 m ρ c (Proc.devRef .tc main_v4) = pre1 (m ((c : Thread nD τ).loc main_arg1)) := by
  dsimp only [W5, W4, W3, W2, W1, hostOps0, hostOps0_1, hostOps0_2, hostOps0_3, hostOps0_4]
  after_results
  rfl

/-! ## Between the regions -/

/-- A buffer neither region 0 nor any host operation before it writes holds at region 0's exit
    what the launch put there: the two per-channel parameters. -/
theorem W6_arg2 (c : Dev nD) : W6 m ρ c (Proc.devRef .tc main_arg2) = m ((c : Thread nD τ).loc main_arg2) := by
  rw [W6_of_ne m ρ c main_arg2 (by decide)]
  dsimp only [W5, W4, W3, W2, W1, hostOps0, hostOps0_1, hostOps0_2, hostOps0_3, hostOps0_4]
  after_results

theorem W6_arg3 (c : Dev nD) : W6 m ρ c (Proc.devRef .tc main_arg3) = m ((c : Thread nD τ).loc main_arg3) := by
  rw [W6_of_ne m ρ c main_arg3 (by decide)]
  dsimp only [W5, W4, W3, W2, W1, hostOps0, hostOps0_1, hostOps0_2, hostOps0_3, hostOps0_4]
  after_results

/-- No host operation between the regions writes the convolution's array. -/
theorem W11_conv (c : Dev nD) : W11 m ρ c (Proc.devRef .tc main_v5_0) = W6 m ρ c (Proc.devRef .tc main_v5_0) := by
  dsimp only [W11, W10, W9, W8, W7, hostOps1, hostOps1_1, hostOps1_2, hostOps1_3, hostOps1_4]
  after_results

/-- The scale at region 1's entry, from region 0's statistics and γ. -/
theorem W11_scale (c : Dev nD) : W11 m ρ c (Proc.devRef .tc main_v25) = scaleOf (W6 m ρ c (Proc.devRef .tc main_v5_1)) (m ((c : Thread nD τ).loc main_arg2)) := by
  dsimp only [W11, W10, W9, W8, W7, hostOps1, hostOps1_1, hostOps1_2, hostOps1_3, hostOps1_4]
  after_results_simp
  rw [W6_arg2]
  rfl

/-- The shift at region 1's entry, from region 0's statistics, γ and β. -/
theorem W11_shift (c : Dev nD) : W11 m ρ c (Proc.devRef .tc main_v29) = shiftOf (W6 m ρ c (Proc.devRef .tc main_v5_1)) (m ((c : Thread nD τ).loc main_arg2)) (m ((c : Thread nD τ).loc main_arg3)) := by
  dsimp only [W11, W10, W9, W8, W7, hostOps1, hostOps1_1, hostOps1_2, hostOps1_3, hostOps1_4]
  after_results_simp
  rw [W6_arg2, W6_arg3]
  rfl

/-! ## After region 1 -/

/-- The result is the transpose of region 1's output. -/
theorem W13_res (c : Dev nD) : W13 m ρ c (Proc.devRef .tc main_v31) = tailT (W12 m ρ c (Proc.devRef .tc main_v30)) := by
  dsimp only [W13, hostOps2]
  after_results
  rfl

end Cert.ReferenceIdeal.Val

end
-- ==== Proof.RValue.lean ====
import proofs.«155494_g2000402634760427_pallasbulk_1319_1_alg».proof.Proof.RReg0
import proofs.«155494_g2000402634760427_pallasbulk_1319_1_alg».proof.Proof.RReg1
import proofs.«155494_g2000402634760427_pallasbulk_1319_1_alg».proof.Proof.RHost

set_option maxRecDepth 16384

noncomputable section

namespace Cert.ReferenceIdeal.Val

open Idealize.ShloMosaic Idealize.ShloMosaic.TcCoe Idealize.SL.Sem
open Cert.ReferenceIdeal Cert.ReferenceIdeal.Gen

variable {F : FTy → Type} [FloatOps F]

/-- The whole program as one function of its four argument arrays: the convolution and its per-slab
    statistics of the padded image and the flattened weight, the per-channel scale and shift from the
    statistics, the affine map with the clamp at zero, and the final change of layout. -/
def total (x : Vec F S8x256x64x64 .f32) (w : Vec F S256x256x3x3 .f32) (g : Vec F S256 .f32) (b : Vec F S256 .f32) :
    Vec F S8x256x64x64 .f32 :=
  tailT (GB (GC (pre0 x) (pre1 w)) (scaleOf (GS (pre0 x) (pre1 w)) g) (shiftOf (GS (pre0 x) (pre1 w)) g b))

variable (m : (ℓ : Loc nD τ sig) → Buf (Elt F) ℓ) (ρ : Dev nD → PrngReg)

/-- The convolution array when the first region is left: the first region's output of the padded image and the
    flattened weight the host operations before it computed. -/
theorem W6_conv (c : Dev nD) : W6 m ρ c (Proc.devRef .tc main_v5_0)
    = GC (pre0 (m ((c : Thread nD τ).loc main_arg0))) (pre1 (m ((c : Thread nD τ).loc main_arg1))) := by
  rw [← W5_x m ρ c, ← W5_w m ρ c]
  exact (W6_arr m ρ c 2).trans (final0_2 (V5 m ρ) c)

/-- The statistics array when the first region is left. -/
theorem W6_stats (c : Dev nD) : W6 m ρ c (Proc.devRef .tc main_v5_1)
    = GS (pre0 (m ((c : Thread nD τ).loc main_arg0))) (pre1 (m ((c : Thread nD τ).loc main_arg1))) := by
  rw [← W5_x m ρ c, ← W5_w m ρ c]
  exact (W6_arr m ρ c 3).trans (final0_3 (V5 m ρ) c)

/-- The second region's output array when it is left. -/
theorem W12_out (c : Dev nD) : W12 m ρ c (Proc.devRef .tc main_v30)
    = GB (W11 m ρ c (Proc.devRef .tc main_v5_0)) (W11 m ρ c (Proc.devRef .tc main_v25)) (W11 m ρ c (Proc.devRef .tc main_v29)) :=
  (W12_arr m ρ c 3).trans (final1_3 (V11 m ρ) c)

/-- The result array at the end of the run is `total` of the argument arrays as launched. -/
theorem W13_eq (c : Dev nD) : W13 m ρ c (Proc.devRef .tc main_v31)
    = total (m ((c : Thread nD τ).loc main_arg0)) (m ((c : Thread nD τ).loc main_arg1))
        (m ((c : Thread nD τ).loc main_arg2)) (m ((c : Thread nD τ).loc main_arg3)) := by
  rw [W13_res m ρ c, W12_out m ρ c, W11_conv m ρ c, W11_scale m ρ c, W11_shift m ρ c, W6_conv m ρ c, W6_stats m ρ c]
  rfl

end Cert.ReferenceIdeal.Val

end
-- ==== Proof.BReg0.lean ====
import proofs.«155494_g2000402634760427_pallasbulk_1319_1_alg».proof.Proof.KReg0
import proofs.«155494_g2000402634760427_pallasbulk_1319_1_alg».proof.Proof.RReg0
import Idealize.ShloMosaic.PureOps.Ideal

/-!
# The two first regions compute the same arrays on the extended reals

On the extended reals every float format is the same set and a change of format is the identity, so the kernel's
convolution block (whose product is cast to the 16-bit format before it is stored, and whose inputs are read in that
format) and the reference's (all in the 32-bit format) are one function of the padded image and the weight; so are the
statistics blocks; and so are the arrays assembled from them, entry by entry.
-/

set_option maxRecDepth 16384

noncomputable section

namespace Cert.Bridge

open Idealize.ShloMosaic Idealize.ShloMosaic.TcCoe Idealize.SL.Sem

namespace Reg0

/-- One grid point's convolution block: the reference's is the kernel's. -/
theorem convBlk_eq (i : Cert.KernelIdeal.grid0.Coords) (x0 : Vec Ideal Cert.KernelIdeal.S1x68x68x256 .bf16)
    (x1 : Vec Ideal Cert.KernelIdeal.S2304x256 .bf16) :
    Cert.ReferenceIdeal.Val.Reg0.convBlk (F := Ideal) i x0 x1 = Cert.KernelIdeal.Val.Reg0.convBlk (F := Ideal) i x0 x1 := rfl

/-- One grid point's statistics block: the reference's is the kernel's. -/
theorem statBlk_eq (i : Cert.KernelIdeal.grid0.Coords) (x0 : Vec Ideal Cert.KernelIdeal.S1x68x68x256 .bf16)
    (x1 : Vec Ideal Cert.KernelIdeal.S2304x256 .bf16) :
    Cert.ReferenceIdeal.Val.Reg0.statBlk (F := Ideal) i x0 x1 = Cert.KernelIdeal.Val.Reg0.statBlk (F := Ideal) i x0 x1 := rfl

end Reg0

/-- The convolution arrays agree: each entry is the same entry of the same point's block of the same padded image. -/
theorem GC_eq (X : Vec Ideal Cert.KernelIdeal.S8x68x68x256 .bf16) (Wt : Vec Ideal Cert.KernelIdeal.S2304x256 .bf16) :
    Cert.ReferenceIdeal.Val.GC (F := Ideal) X Wt = Cert.KernelIdeal.Val.GC (F := Ideal) X Wt :=
  funext fun j => congrFun (Reg0.convBlk_eq
    (Cert.KernelIdeal.Val.Reg0.gridPt (j 0) ⟨(j 1).val / 8, Cert.KernelIdeal.Val.Reg0.rowBlock_lt j⟩)
    (Cert.KernelIdeal.Val.Reg0.image (F := Ideal) X (j 0)) Wt) (Cert.KernelIdeal.Val.Reg0.inRows j)

/-- The statistics arrays agree: each entry is the same entry of the same point's block of the same padded image. -/
theorem GS_eq (X : Vec Ideal Cert.KernelIdeal.S8x68x68x256 .bf16) (Wt : Vec Ideal Cert.KernelIdeal.S2304x256 .bf16) :
    Cert.ReferenceIdeal.Val.GS (F := Ideal) X Wt = Cert.KernelIdeal.Val.GS (F := Ideal) X Wt :=
  funext fun j => congrFun (Reg0.statBlk_eq
    (Cert.KernelIdeal.Val.Reg0.gridPt (j 0) (j 1))
    (Cert.KernelIdeal.Val.Reg0.image (F := Ideal) X (j 0)) Wt) (Cert.KernelIdeal.Val.Reg0.inStat j)

end Cert.Bridge

end
-- ==== Proof.BReg1.lean ====
import proofs.«155494_g2000402634760427_pallasbulk_1319_1_alg».proof.Proof.KReg1
import proofs.«155494_g2000402634760427_pallasbulk_1319_1_alg».proof.Proof.RReg1
import Idealize.ShloMosaic.PureOps.Ideal

set_option maxRecDepth 16384

noncomputable section

namespace Cert.Bridge

open Idealize.ShloMosaic Idealize.ShloMosaic.TcCoe Idealize.SL.Sem

/-- At the extended reals the two programs' region-1 functions are one function: both are
    max (A · s[channel] + b[channel], 0) entry by entry, and the kernel's widening of A's bf16 entries to f32 is the
    identity there. -/
theorem GB_eq (A : Vec Ideal Cert.KernelIdeal.S8x64x64x256 .bf16) (s b : Vec Ideal Cert.KernelIdeal.S1x256 .f32) :
    Cert.ReferenceIdeal.Val.GB (F := Ideal) A s b = Cert.KernelIdeal.Val.GB (F := Ideal) A s b := rfl

end Cert.Bridge

end
-- ==== Proof.BHost.lean ====
import proofs.«155494_g2000402634760427_pallasbulk_1319_1_alg».proof.Proof.KHost
import proofs.«155494_g2000402634760427_pallasbulk_1319_1_alg».proof.Proof.RHost
import Idealize.ShloMosaic.PureOps.Ideal

set_option maxRecDepth 16384

noncomputable section

namespace Cert.Bridge

open Idealize.ShloMosaic Idealize.ShloMosaic.TcCoe Idealize.SL.Sem

/-! # The two programs' host stretches are one function at the extended reals

Every float format's carrier is the extended reals there and a cast between formats is the
identity; the two programs' shapes of one name are one shape. So each pair of trees is the same
tree. -/

/-- The cast to bf16 is the identity, so the reference's padded image is the kernel's. -/
theorem pre0_eq (x : Vec Ideal Cert.KernelIdeal.S8x256x64x64 .f32) : Cert.ReferenceIdeal.Val.pre0 (F := Ideal) x = Cert.KernelIdeal.Val.pre0 (F := Ideal) x := rfl
/-- Likewise the weight matrix. -/
theorem pre1_eq (w : Vec Ideal Cert.KernelIdeal.S256x256x3x3 .f32) : Cert.ReferenceIdeal.Val.pre1 (F := Ideal) w = Cert.KernelIdeal.Val.pre1 (F := Ideal) w := rfl
/-- The scale is the same operations on the same literals in both programs. -/
theorem scaleOf_eq (st : Vec Ideal Cert.KernelIdeal.S8x8x2x256 .f32) (g : Vec Ideal Cert.KernelIdeal.S256 .f32) :
    Cert.ReferenceIdeal.Val.scaleOf (F := Ideal) st g = Cert.KernelIdeal.Val.scaleOf (F := Ideal) st g := rfl
/-- So is the shift. -/
theorem shiftOf_eq (st : Vec Ideal Cert.KernelIdeal.S8x8x2x256 .f32) (g b : Vec Ideal Cert.KernelIdeal.S256 .f32) :
    Cert.ReferenceIdeal.Val.shiftOf (F := Ideal) st g b = Cert.KernelIdeal.Val.shiftOf (F := Ideal) st g b := rfl
/-- And the final transpose. -/
theorem tailT_eq (o : Vec Ideal Cert.KernelIdeal.S8x64x64x256 .f32) : Cert.ReferenceIdeal.Val.tailT (F := Ideal) o = Cert.KernelIdeal.Val.tailT (F := Ideal) o := rfl

end Cert.Bridge

end
-- ==== Proof.Bridge.lean ====
import proofs.«155494_g2000402634760427_pallasbulk_1319_1_alg».proof.Proof.KValue
import proofs.«155494_g2000402634760427_pallasbulk_1319_1_alg».proof.Proof.RValue
import proofs.«155494_g2000402634760427_pallasbulk_1319_1_alg».proof.Proof.BReg0
import proofs.«155494_g2000402634760427_pallasbulk_1319_1_alg».proof.Proof.BReg1
import proofs.«155494_g2000402634760427_pallasbulk_1319_1_alg».proof.Proof.BHost
import Idealize.ShloMosaic.PureOps.Ideal

set_option maxRecDepth 16384

noncomputable section

namespace Cert.Bridge

open Idealize.ShloMosaic Idealize.ShloMosaic.TcCoe Idealize.SL.Sem

/-- At the extended reals the two programs are one function of the four argument arrays: each stage of the
    reference is the same stage of the kernel (a change of float format, the only difference between them,
    is the identity there), so the composites agree stage by stage. -/
theorem total_eq (x : Vec Ideal Cert.KernelIdeal.S8x256x64x64 .f32) (w : Vec Ideal Cert.KernelIdeal.S256x256x3x3 .f32)
    (g b : Vec Ideal Cert.KernelIdeal.S256 .f32) :
    Cert.ReferenceIdeal.Val.total (F := Ideal) x w g b = Cert.KernelIdeal.Val.total (F := Ideal) x w g b := by
  unfold Cert.ReferenceIdeal.Val.total Cert.KernelIdeal.Val.total
  rw [pre0_eq x, pre1_eq w]
  rw [GC_eq, GS_eq, scaleOf_eq, shiftOf_eq, GB_eq, tailT_eq]

end Cert.Bridge

end
-- ==== Proof.lean ====
/- The five conjuncts of `Cert.Claim`.
   The kernel and its reference are the same two-pass program: a dilated 3×3 convolution of the zero-padded
   image, written as one matrix product per slab of eight output rows, with the slab's column sums and sums of
   squares beside it; then, from the sums over all slabs, the per-channel mean and biased variance, the scale
   γ / sqrt(var + ε) and the shift β − mean · scale; then max(conv · scale + shift, 0) entry by entry; and a
   final change of layout. The kernel differs only in storing the padded image, the weight and the convolution
   in a shorter float format, and a change of float format is the identity on the extended reals. So each
   program's result is one function `total` of its four argument arrays (Proof/KValue.lean, Proof/RValue.lean:
   every region's output array as the array whose blocks are the body's payload of the input blocks, every
   stretch of host operations as the term it computes), and the two functions agree stage by stage
   (Proof/Bridge.lean). No algebraic law and no finiteness of the inputs is used.
   The three frames are the generated ones; the ideal pass rewrote nothing, so `preserves` is trivial. -/
import proofs.«155494_g2000402634760427_pallasbulk_1319_1_alg».proof.Defs
import proofs.«155494_g2000402634760427_pallasbulk_1319_1_alg».proof.Proof.Gen.Kernel
import proofs.«155494_g2000402634760427_pallasbulk_1319_1_alg».proof.Proof.Gen.Kernel.Frame
import proofs.«155494_g2000402634760427_pallasbulk_1319_1_alg».proof.Proof.Gen.KernelIdeal
import proofs.«155494_g2000402634760427_pallasbulk_1319_1_alg».proof.Proof.Gen.KernelIdeal.Frame
import proofs.«155494_g2000402634760427_pallasbulk_1319_1_alg».proof.Proof.Gen.ReferenceIdeal
import proofs.«155494_g2000402634760427_pallasbulk_1319_1_alg».proof.Proof.Gen.ReferenceIdeal.Frame
import proofs.«155494_g2000402634760427_pallasbulk_1319_1_alg».proof.Proof.Gen.Pre_finite_inputs
import proofs.«155494_g2000402634760427_pallasbulk_1319_1_alg».proof.Proof.KRun
import proofs.«155494_g2000402634760427_pallasbulk_1319_1_alg».proof.Proof.RRun
import proofs.«155494_g2000402634760427_pallasbulk_1319_1_alg».proof.Proof.KValue
import proofs.«155494_g2000402634760427_pallasbulk_1319_1_alg».proof.Proof.RValue
import proofs.«155494_g2000402634760427_pallasbulk_1319_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation of the kernel. -/
theorem preserves : Cert.preserves_Kernel_KernelIdeal := trivial

/-- Both idealized programs end with the result array at `total` of the argument arrays; the arguments
    agree, and the two `total`s are one function. -/
theorem algebraic : Cert.algebraic_KernelIdeal_ReferenceIdeal := by
  intro m ρ m' ρ' _ hagree
  refine ⟨fun c => Cert.KernelIdeal.Val.total (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Val.W13_eq m ρ c), (h c).2⟩)
      (Cert.KernelIdeal.RunV.run (F := Ideal) m ρ)
  · refine (θ_run Cert.ReferenceIdeal.defs _ _).mono (fun r h c => ⟨?_, (h c).2⟩)
      (Cert.ReferenceIdeal.RunV.run (F := Ideal) m' ρ')
    rw [(h c).1, Cert.ReferenceIdeal.Val.W13_eq m' ρ' c, (hagree c).1, (hagree c).2.1, (hagree c).2.2.1, (hagree c).2.2.2]
    exact Cert.Bridge.total_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
